-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S5632 : S_.BroadcastsInDim S5632 (![] : Fin 0 → Fin S5632.rank)
  reducesTo_S5632_S_d0 : S5632.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S5632 .f32) (main_arg7 : FVec F S4096x8 .f32) (main_arg9 : FVec F S2048 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S5632 .f32 := Host.absf main_arg6
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S4096x8 .f32 := Host.absf main_arg7
  let main_cst_8 : FVec F S_ .f32 := constant S_ .f32 0x7F800000#32
  let main_v25 : FVec F S4096x8 .f32 := broadcastInDim S4096x8 ![] bcast_S_S4096x8 main_cst_8
  let main_v26 : IVec S4096x8 1 := cmpf .olt main_v24 main_v25
  let main_c_9 : IVec S_ 1 := constantI S_ 1 1#1
  let main_v27 : IVec S_ 1 := (fun x v => Host.reduce IntOp.andi x v reducesTo_S4096x8_S_d0_1 h_S_) main_v26 main_c_9
  let main_v28 : IVec S_ 1 := andi main_v23 main_v27
  let main_v29 : FVec F S2048 .f32 := Host.absf main_arg9
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S4096x8 .f32) (main_arg2 : IVec S5632x256 32) (main_arg3 : FVec F S5632 .f32) (main_arg4 : FVec F S4096x8 .f32) (main_arg5 : IVec S5632x256 32) (main_arg6 : FVec F S5632 .f32) (main_arg7 : FVec F S4096x8 .f32) (main_arg8 : IVec S2048x704 32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S4096x8 .f32 := Host.absf main_arg4
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg6 main_arg7 main_arg9 main_v13 main_v16
-- ==== Kernel.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩
abbrev S5632x256x1 : Shape := ⟨3, ![5632, 256, 1]⟩
abbrev S5632x256x8 : Shape := ⟨3, ![5632, 256, 8]⟩
abbrev S5632x2048 : Shape := ⟨2, ![5632, 2048]⟩
abbrev S5632x1 : Shape := ⟨2, ![5632, 1]⟩
abbrev S2048x704x1 : Shape := ⟨3, ![2048, 704, 1]⟩
abbrev S2048x704x8 : Shape := ⟨3, ![2048, 704, 8]⟩
abbrev S2048x5632 : Shape := ⟨2, ![2048, 5632]⟩
abbrev S2048x1 : Shape := ⟨2, ![2048, 1]⟩
abbrev S4096x5632 : Shape := ⟨2, ![4096, 5632]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 55
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S5632x256, .i32⟩
  | .hbm, ⟨3, _⟩ => ⟨S5632, .f32⟩
  | .hbm, ⟨4, _⟩ => ⟨S4096x8, .f32⟩
  | .hbm, ⟨5, _⟩ => ⟨S5632x256, .i32⟩
  | .hbm, ⟨6, _⟩ => ⟨S5632, .f32⟩
  | .hbm, ⟨7, _⟩ => ⟨S4096x8, .f32⟩
  | .hbm, ⟨8, _⟩ => ⟨S2048x704, .i32⟩
  | .hbm, ⟨9, _⟩ => ⟨S2048, .f32⟩
  | .hbm, ⟨10, _⟩ => ⟨S_, .i32⟩
  | .hbm, ⟨11, _⟩ => ⟨S5632x256, .i32⟩
  | .hbm, ⟨12, _⟩ => ⟨S5632x256, .i1⟩
  | .hbm, ⟨13, _⟩ => ⟨S_, .i32⟩
  | .hbm, ⟨14, _⟩ => ⟨S5632x256, .i32⟩
  | .hbm, ⟨15, _⟩ => ⟨S5632x256, .i32⟩
  | .hbm, ⟨16, _⟩ => ⟨S5632x256, .i32⟩
  | .hbm, ⟨17, _⟩ => ⟨S5632x256x1, .i32⟩
  | .hbm, ⟨18, _⟩ => ⟨S5632x256x8, .f32⟩
  | .hbm, ⟨19, _⟩ => ⟨S5632x2048, .f32⟩
  | .hbm, ⟨20, _⟩ => ⟨S5632x1, .f32⟩
  | .hbm, ⟨21, _⟩ => ⟨S5632x2048, .f32⟩
  | .hbm, ⟨22, _⟩ => ⟨S5632x2048, .f32⟩
  | .hbm, ⟨23, _⟩ => ⟨S_, .i32⟩
  | .hbm, ⟨24, _⟩ => ⟨S5632x256, .i32⟩
  | .hbm, ⟨25, _⟩ => ⟨S5632x256, .i1⟩
  | .hbm, ⟨26, _⟩ => ⟨S_, .i32⟩
  | .hbm, ⟨27, _⟩ => ⟨S5632x256, .i32⟩
  | .hbm, ⟨28, _⟩ => ⟨S5632x256, .i32⟩
  | .hbm, ⟨29, _⟩ => ⟨S5632x256, .i32⟩
  | .hbm, ⟨30, _⟩ => ⟨S5632x256x1, .i32⟩
  | .hbm, ⟨31, _⟩ => ⟨S5632x256x8, .f32⟩
  | .hbm, ⟨32, _⟩ => ⟨S5632x2048, .f32⟩
  | .hbm, ⟨33, _⟩ => ⟨S5632x1, .f32⟩
  | .hbm, ⟨34, _⟩ => ⟨S5632x2048, .f32⟩
  | .hbm, ⟨35, _⟩ => ⟨S5632x2048, .f32⟩
  | .hbm, ⟨36, _⟩ => ⟨S_, .i32⟩
  | .hbm, ⟨37, _⟩ => ⟨S2048x704, .i32⟩
  | .hbm, ⟨38, _⟩ => ⟨S2048x704, .i1⟩
  | .hbm, ⟨39, _⟩ => ⟨S_, .i32⟩
  | .hbm, ⟨40, _⟩ => ⟨S2048x704, .i32⟩
  | .hbm, ⟨41, _⟩ => ⟨S2048x704, .i32⟩
  | .hbm, ⟨42, _⟩ => ⟨S2048x704, .i32⟩
  | .hbm, ⟨43, _⟩ => ⟨S2048x704x1, .i32⟩
  | .hbm, ⟨44, _⟩ => ⟨S2048x704x8, .f32⟩
  | .hbm, ⟨45, _⟩ => ⟨S2048x5632, .f32⟩
  | .hbm, ⟨46, _⟩ => ⟨S2048x1, .f32⟩
  | .hbm, ⟨47, _⟩ => ⟨S2048x5632, .f32⟩
  | .hbm, ⟨48, _⟩ => ⟨S2048x5632, .f32⟩
  | .hbm, ⟨49, _⟩ => ⟨S4096x2048, .bf16⟩
  | .hbm, ⟨50, _⟩ => ⟨S5632x2048, .bf16⟩
  | .hbm, ⟨51, _⟩ => ⟨S5632x2048, .bf16⟩
  | .hbm, ⟨52, _⟩ => ⟨S2048x5632, .bf16⟩
  | .hbm, ⟨53, _⟩ => ⟨S4096x5632, .bf16⟩
  | .hbm, ⟨54, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 11], ![false, false]⟩

def k1_cond2 (i : grid1.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S5632x256 : S_.BroadcastsInDim S5632x256 (![] : Fin 0 → Fin S5632x256.rank)
  bcast_S5632x256_S5632x256x1_0_1 : S5632x256.BroadcastsInDim S5632x256x1 (![0, 1] : Fin 2 → Fin S5632x256x1.rank)
  shapeCasts_S5632x256x8_S5632x2048 : S5632x256x8.ShapeCasts S5632x2048
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  bcast_S_S2048x704 : S_.BroadcastsInDim S2048x704 (![] : Fin 0 → Fin S2048x704.rank)
  bcast_S2048x704_S2048x704x1_0_1 : S2048x704.BroadcastsInDim S2048x704x1 (![0, 1] : Fin 2 → Fin S2048x704x1.rank)
  shapeCasts_S2048x704x8_S2048x5632 : S2048x704x8.ShapeCasts S2048x5632
  bcast_S2048_S2048x1_0 : S2048.BroadcastsInDim S2048x1 (![0] : Fin 1 → Fin S2048x1.rank)
  bcast_S2048x1_S2048x5632_0_1 : S2048x1.BroadcastsInDim S2048x5632 (![0, 1] : Fin 2 → Fin S2048x5632.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  gather_S4096x8_S5632x256x1_S5632x256x8_2_0_n_n_0_2_18_wf : GatherDims.WF S4096x8 S5632x256x1 S5632x256x8 [2] [0] [] [0] [] 2 ![1, 8]
  gather_S4096x8_S2048x704x1_S2048x704x8_2_0_n_n_0_2_18_wf : GatherDims.WF S4096x8 S2048x704x1 S2048x704x8 [2] [0] [] [0] [] 2 ![1, 8]
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x5632.size a
  hwx0_3 : ∀ i : grid0.Coords, EltTy.bits .bf16 = 32 ∨ (Rect.block (s := S4096x5632) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x5632.size a
  hwx1_0 : ∀ i : grid1.Coords, EltTy.bits .bf16 = 32 ∨ (Rect.block (s := S4096x5632) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x5632.size a
  hwx1_1 : ∀ i : grid1.Coords, EltTy.bits .bf16 = 32 ∨ (Rect.block (s := S2048x5632) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .f32 = 32 ∨ (Rect.block (s := S4096x2048) S512x2048.size (cc1_transform_2 i) (hinb1_2 i)).WholeWords (EltTy.packing .f32)

variable [Facts₀]

def gather_S4096x8_S5632x256x1_S5632x256x8_2_0_n_n_0_2_18 : GatherDims S4096x8 S5632x256x1 S5632x256x8 where
  offsetDims := [2]
  collapsedSliceDims := [0]
  operandBatchingDims := []
  startIndicesBatchingDims := []
  startIndexMap := [0]
  indexVectorDim := 2
  sliceSizes := ![1, 8]
  wf := gather_S4096x8_S5632x256x1_S5632x256x8_2_0_n_n_0_2_18_wf
def gather_S4096x8_S2048x704x1_S2048x704x8_2_0_n_n_0_2_18 : GatherDims S4096x8 S2048x704x1 S2048x704x8 where
  offsetDims := [2]
  collapsedSliceDims := [0]
  operandBatchingDims := []
  startIndicesBatchingDims := []
  startIndexMap := [0]
  indexVectorDim := 2
  sliceSizes := ![1, 8]
  wf := gather_S4096x8_S2048x704x1_S2048x704x8_2_0_n_n_0_2_18_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v33) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩
abbrev S5632x256x1 : Shape := ⟨3, ![5632, 256, 1]⟩
abbrev S5632x256x8 : Shape := ⟨3, ![5632, 256, 8]⟩
abbrev S5632x2048 : Shape := ⟨2, ![5632, 2048]⟩
abbrev S5632x1 : Shape := ⟨2, ![5632, 1]⟩
abbrev S2048x704x1 : Shape := ⟨3, ![2048, 704, 1]⟩
abbrev S2048x704x8 : Shape := ⟨3, ![2048, 704, 8]⟩
abbrev S2048x5632 : Shape := ⟨2, ![2048, 5632]⟩
abbrev S2048x1 : Shape := ⟨2, ![2048, 1]⟩
abbrev S4096x5632 : Shape := ⟨2, ![4096, 5632]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S5632x256, .i32⟩
  | .hbm, ⟨3, _⟩ => ⟨S5632, .f32⟩
  | .hbm, ⟨4, _⟩ => ⟨S4096x8, .f32⟩
  | .hbm, ⟨5, _⟩ => ⟨S5632x256, .i32⟩
  | .hbm, ⟨6, _⟩ => ⟨S5632, .f32⟩
  | .hbm, ⟨7, _⟩ => ⟨S4096x8, .f32⟩
  | .hbm, ⟨8, _⟩ => ⟨S2048x704, .i32⟩
  | .hbm, ⟨9, _⟩ => ⟨S2048, .f32⟩
  | .hbm, ⟨10, _⟩ => ⟨S_, .i32⟩
  | .hbm, ⟨11, _⟩ => ⟨S5632x256, .i32⟩
  | .hbm, ⟨12, _⟩ => ⟨S5632x256, .i1⟩
  | .hbm, ⟨13, _⟩ => ⟨S_, .i32⟩
  | .hbm, ⟨14, _⟩ => ⟨S5632x256, .i32⟩
  | .hbm, ⟨15, _⟩ => ⟨S5632x256, .i32⟩
  | .hbm, ⟨16, _⟩ => ⟨S5632x256, .i32⟩
  | .hbm, ⟨17, _⟩ => ⟨S5632x256x1, .i32⟩
  | .hbm, ⟨18, _⟩ => ⟨S5632x256x8, .f32⟩
  | .hbm, ⟨19, _⟩ => ⟨S5632x2048, .f32⟩
  | .hbm, ⟨20, _⟩ => ⟨S5632x1, .f32⟩
  | .hbm, ⟨21, _⟩ => ⟨S5632x2048, .f32⟩
  | .hbm, ⟨22, _⟩ => ⟨S5632x2048, .f32⟩
  | .hbm, ⟨23, _⟩ => ⟨S_, .i32⟩
  | .hbm, ⟨24, _⟩ => ⟨S5632x256, .i32⟩
  | .hbm, ⟨25, _⟩ => ⟨S5632x256, .i1⟩
  | .hbm, ⟨26, _⟩ => ⟨S_, .i32⟩
  | .hbm, ⟨27, _⟩ => ⟨S5632x256, .i32⟩
  | .hbm, ⟨28, _⟩ => ⟨S5632x256, .i32⟩
  | .hbm, ⟨29, _⟩ => ⟨S5632x256, .i32⟩
  | .hbm, ⟨30, _⟩ => ⟨S5632x256x1, .i32⟩
  | .hbm, ⟨31, _⟩ => ⟨S5632x256x8, .f32⟩
  | .hbm, ⟨32, _⟩ => ⟨S5632x2048, .f32⟩
  | .hbm, ⟨33, _⟩ => ⟨S5632x1, .f32⟩
  | .hbm, ⟨34, _⟩ => ⟨S5632x2048, .f32⟩
  | .hbm, ⟨35, _⟩ => ⟨S5632x2048, .f32⟩
  | .hbm, ⟨36, _⟩ => ⟨S_, .i32⟩
  | .hbm, ⟨37, _⟩ => ⟨S2048x704, .i32⟩
  | .hbm, ⟨38, _⟩ => ⟨S2048x704, .i1⟩
  | .hbm, ⟨39, _⟩ => ⟨S_, .i32⟩
  | .hbm, ⟨40, _⟩ => ⟨S2048x704, .i32⟩
  | .hbm, ⟨41, _⟩ => ⟨S2048x704, .i32⟩
  | .hbm, ⟨42, _⟩ => ⟨S2048x704, .i32⟩
  | .hbm, ⟨43, _⟩ => ⟨S2048x704x1, .i32⟩
  | .hbm, ⟨44, _⟩ => ⟨S2048x704x8, .f32⟩
  | .hbm, ⟨45, _⟩ => ⟨S2048x5632, .f32⟩
  | .hbm, ⟨46, _⟩ => ⟨S2048x1, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S_, .f32⟩
  | .hbm, ⟨54, _⟩ => ⟨S4096x5632, .f32⟩
  | .hbm, ⟨55, _⟩ => ⟨S4096x5632, .f32⟩
  | .hbm, ⟨56, _⟩ => ⟨S_, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S2048x5632, .f32⟩
  | .hbm, ⟨61, _⟩ => ⟨S4096x5632, .f32⟩
  | .hbm, ⟨62, _⟩ => ⟨S4096x5632, .f32⟩
  | .hbm, ⟨63, _⟩ => ⟨S5632x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S_S5632x256 : S_.BroadcastsInDim S5632x256 (![] : Fin 0 → Fin S5632x256.rank)
  bcast_S5632x256_S5632x256x1_0_1 : S5632x256.BroadcastsInDim S5632x256x1 (![0, 1] : Fin 2 → Fin S5632x256x1.rank)
  shapeCasts_S5632x256x8_S5632x2048 : S5632x256x8.ShapeCasts S5632x2048
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  bcast_S_S2048x704 : S_.BroadcastsInDim S2048x704 (![] : Fin 0 → Fin S2048x704.rank)
  bcast_S2048x704_S2048x704x1_0_1 : S2048x704.BroadcastsInDim S2048x704x1 (![0, 1] : Fin 2 → Fin S2048x704x1.rank)
  shapeCasts_S2048x704x8_S2048x5632 : S2048x704x8.ShapeCasts S2048x5632
  bcast_S2048_S2048x1_0 : S2048.BroadcastsInDim S2048x1 (![0] : Fin 1 → Fin S2048x1.rank)
  bcast_S2048x1_S2048x5632_0_1 : S2048x1.BroadcastsInDim S2048x5632 (![0, 1] : Fin 2 → Fin S2048x5632.rank)
  transposes_S5632x2048_S2048x5632_1_0 : S5632x2048.Transposes [1, 0] S2048x5632
  bcast_S_S4096x5632 : S_.BroadcastsInDim S4096x5632 (![] : Fin 0 → Fin S4096x5632.rank)
  transposes_S2048x5632_S5632x2048_1_0 : S2048x5632.Transposes [1, 0] S5632x2048
  gather_S4096x8_S5632x256x1_S5632x256x8_2_0_n_n_0_2_18_wf : GatherDims.WF S4096x8 S5632x256x1 S5632x256x8 [2] [0] [] [0] [] 2 ![1, 8]
  gather_S4096x8_S2048x704x1_S2048x704x8_2_0_n_n_0_2_18_wf : GatherDims.WF S4096x8 S2048x704x1 S2048x704x8 [2] [0] [] [0] [] 2 ![1, 8]
  dot_S4096x2048_S2048x5632_S4096x5632_1_0_0_1_n_n_wf : DotDims.WF S4096x2048 S2048x5632 S4096x5632 [1] [0] [0] [1] [] []
  dot_S4096x5632_S5632x2048_S4096x2048_1_0_0_1_n_n_wf : DotDims.WF S4096x5632 S5632x2048 S4096x2048 [1] [0] [0] [1] [] []

variable [Facts₀]

def gather_S4096x8_S5632x256x1_S5632x256x8_2_0_n_n_0_2_18 : GatherDims S4096x8 S5632x256x1 S5632x256x8 where
  offsetDims := [2]
  collapsedSliceDims := [0]
  operandBatchingDims := []
  startIndicesBatchingDims := []
  startIndexMap := [0]
  indexVectorDim := 2
  sliceSizes := ![1, 8]
  wf := gather_S4096x8_S5632x256x1_S5632x256x8_2_0_n_n_0_2_18_wf
def gather_S4096x8_S2048x704x1_S2048x704x8_2_0_n_n_0_2_18 : GatherDims S4096x8 S2048x704x1 S2048x704x8 where
  offsetDims := [2]
  collapsedSliceDims := [0]
  operandBatchingDims := []
  startIndicesBatchingDims := []
  startIndexMap := [0]
  indexVectorDim := 2
  sliceSizes := ![1, 8]
  wf := gather_S4096x8_S2048x704x1_S2048x704x8_2_0_n_n_0_2_18_wf
def dot_S4096x2048_S2048x5632_S4096x5632_1_0_0_1_n_n : DotDims S4096x2048 S2048x5632 S4096x5632 where
  lhsContracting := [1]
  rhsContracting := [0]
  lhsNonContracting := [0]
  rhsNonContracting := [1]
  lhsBatch := []
  rhsBatch := []
  wf := dot_S4096x2048_S2048x5632_S4096x5632_1_0_0_1_n_n_wf
def dot_S4096x5632_S5632x2048_S4096x2048_1_0_0_1_n_n : DotDims S4096x5632 S5632x2048 S4096x2048 where
  lhsContracting := [1]
  rhsContracting := [0]
  lhsNonContracting := [0]
  rhsNonContracting := [1]
  lhsBatch := []
  rhsBatch := []
  wf := dot_S4096x5632_S5632x2048_S4096x2048_1_0_0_1_n_n_wf

class Facts : Prop extends Facts₀ where

variable [Facts]
-- ==== Proof.KernelGateup.lean ====
/-
  The gate/up projection with the fused activation, as one pipelined region: at grid point (i, n) the body
  reads a 512-row block of the activations and 512-row blocks of the two weight matrices, forms the two
  512 × 512 products over the whole hidden axis, multiplies the first by its logistic and by the second,
  and stores the result block whole. Stated at any region-entry contents `V` and any float instance: what
  each staging buffer holds before and after the body at a point, the body's triple, the region's proof
  data and its body obligation.
-/
import proofs.«103767_j678604833231_1_alg».proof.Proof.Gen.Kernel.Launch
import proofs.«103767_j678604833231_1_alg».proof.Proof.Gen.Kernel.Skeleton
import proofs.«103767_j678604833231_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block at every point, fetched there or not (its block
    index moves only with the first grid coordinate). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The gate weights' staging buffer holds the point's row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The up weights' staging buffer holds the point's row block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 2048 rectangle every input block is loaded through. -/
abbrev rIn0 : Rect S512x2048 := Rect.unit (s := S512x2048) ![0, 0] S512x2048.size inb_S512x2048_S512x2048_0_0
/-- The whole 512 × 512 rectangle the result block is stored through. -/
abbrev rOut0 : Rect S512x512 := Rect.unit (s := S512x512) ![0, 0] S512x512.size inb_S512x512_S512x512_0_0

/-- The result window's staging buffer after the body, from the three input blocks: one whole-block store. -/
def out0_3 (x0 x1 x2 : Vec F S512x2048 .bf16) : Vec F S512x512 .bf16 :=
  View.canon [⟨rOut0, k0_pay1 (View.ld x0 rIn0) (View.ld x1 rIn0) (View.ld x2 rIn0)⟩]

/-- The one store covers the block. -/
theorem cover0_3 (p0 : Vec F S512x512 .bf16) (y : S512x512.Idx) :
    ∃ pc ∈ ([⟨rOut0, p0⟩] : List (View.Piece (Elt F) S512x512 .bf16)), y ∈ pc.1.set :=
  View.cover_of_tiled [⟨rOut0, p0⟩] S512x512.size (by rfl) y

/-! ## The body's triple -/

set_option maxHeartbeats 4000000 in
/-- The body on whole staging memrefs: the inputs' at read contents, the result's at anything; it returns with the
    inputs' as they were and the result's at `out0_3` of the inputs'. -/
theorem sound_kernel0 (c : Dev nD) (E : Set ℕ) (i : grid0.Coords)
    (arg2 : Memref sig .tc .vmem S512x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .bf16) (harg5 : arg5.IsWhole)
    (x0 x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gateup_kernel i arg2 harg2 arg3 harg3 arg4 harg4 arg5 harg5) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data on core `c`: the arrays as the region finds them; after the body at point `t` each input's
    buffer at its block and the result's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelDown.lean ====
/-
  The down projection as one pipelined region that reduces over its second grid axis: at grid point (i, k) the
  body reads a 512 × 512 block of the hidden layer and a 2048 × 512 block of the down weights, adds their product
  over the block's 512 hidden units to an accumulator kept in scratch, which it zeroes first when k = 0, and
  copies the accumulator to the result block when k = 10 (the last of the eleven blocks). Stated at any
  region-entry contents `V` and any float instance: the body's triple in each of its three control cases, what
  the accumulator holds after each point, the region's invariant (the accumulator at those contents), its proof
  data and its body obligation.
-/
import proofs.«103767_j678604833231_1_alg».proof.Proof.Gen.Kernel.Launch
import proofs.«103767_j678604833231_1_alg».proof.Proof.Gen.Kernel.Skeleton
import proofs.«103767_j678604833231_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## A whole-buffer store decides what the buffer reads back -/

/-- The offset of every whole-buffer rectangle of rank two. -/
theorem off2_zero : (![0, 0] : Fin 2 → ℕ) = fun _ => 0 := by
  funext a; fin_cases a <;> rfl

/-- After a list of stores whose LAST is a store of `w` through the buffer's whole rectangle, the buffer reads `w`,
    whatever the earlier stores and the prior contents were. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The down weights' staging buffer holds the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first block of the reduction" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
/-- "This is the last block of the reduction" (k = 10), as the body computes it. -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

/-- The inputs are never idle; the result window is idle, and not written back, exactly off the last block. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's triple, case by case -/

/-- The accumulator, a whole scoped buffer of the kernel's own. -/
abbrev scM1 : Memref sig .tc .vmem S512x2048 .f32 := Memref.whole cc1_scratch0

set_option maxHeartbeats 4000000 in
/-- FIRST BLOCK (k = 0): the accumulator, found at anything, is zeroed and the block's product added; the result
    buffer is handed back as found. -/
theorem run1_first (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : cond1_0 i) (hc1 : ¬cond1_1 i)
    (x0 : Vec F S512x512 .bf16) (x1 : Vec F S2048x512 .bf16) (y : Vec F S512x2048 .f32) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 k1_pay1)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%f4, %hf4, H4⟩, ⟨%ds0, %fs0, -, HS0⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS0
  ipureintro
  sl_unfold_words
  rw [read_writes_whole _ _ off2_zero]
  simp only [View.readAt_eq_ld, harg2.read_unread, harg3.read_unread, View.ld_unit_zero (S := S512x512) off2_zero,
    View.ld_unit_zero (S := S2048x512) off2_zero, View.readCov_unit_zero (S := S512x2048) _ off2_zero]

set_option maxHeartbeats 4000000 in
/-- A MIDDLE BLOCK (0 < k < 10): the block's product is added to the accumulator, found at `a`; the result buffer is
    handed back as found. -/
theorem run1_mid (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : ¬cond1_0 i) (hc1 : ¬cond1_1 i)
    (x0 : Vec F S512x512 .bf16) (x1 : Vec F S2048x512 .bf16) (y a : Vec F S512x2048 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%f4, %hf4, H4⟩, ⟨%fs0, %hfs0, HS0⟩, Hk⟩
  obtain rfl := harg2.eq_unread hf0; obtain rfl := harg3.eq_unread hf1; obtain rfl := harg4.eq_unread hf4
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS0
  ipureintro
  sl_unfold_words
  rw [read_writes_whole _ _ off2_zero]
  simp only [View.readAt_eq_ld, harg2.read_unread, harg3.read_unread, harg5.read_unread, View.ld_unit_zero (S := S512x512) off2_zero,
    View.ld_unit_zero (S := S2048x512) off2_zero, View.ld_unit_zero (S := S512x2048) off2_zero]

set_option maxHeartbeats 4000000 in
/-- THE LAST BLOCK (k = 10): the block's product is added to the accumulator, found at `a`, and the sum copied to the
    result buffer, found at anything. -/
theorem run1_last (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : ¬cond1_0 i) (hc1 : cond1_1 i)
    (x0 : Vec F S512x512 .bf16) (x1 : Vec F S2048x512 .bf16) (a : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (k1_pay2 x0 x1 a)
            ∗ owns (c : Thread nD τ) arg5 fullShare (k1_pay2 x0 x1 a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%d4, %f4, -, H4⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_whole _ _ off2_zero]
    simp only [View.readAt_eq_ld, harg2.read_unread, harg3.read_unread, harg5.read_unread, View.ld_unit_zero (S := S512x512) off2_zero,
      View.ld_unit_zero (S := S2048x512) off2_zero, View.ld_unit_zero (S := S512x2048) off2_zero,
      View.readCov_unit_zero (S := S512x2048) _ off2_zero]
  iexists _; isplitr
  swap; · iexact HS0
  ipureintro
  sl_unfold_words
  rw [read_writes_whole _ _ off2_zero]
  simp only [View.readAt_eq_ld, harg2.read_unread, harg3.read_unread, harg5.read_unread, View.ld_unit_zero (S := S512x512) off2_zero,
    View.ld_unit_zero (S := S2048x512) off2_zero, View.ld_unit_zero (S := S512x2048) off2_zero]

/-! ## What the accumulator holds after each point -/

/-- The accumulator after the body at position `n`: at the first block of a reduction the block's product over
    zero, at the later blocks over what the point before left. -/
def accAt1 (c : Dev nD) : (n : ℕ) → n < cfg1.N → Vec F S512x2048 .f32
  | 0, hn => k1_pay2 (iblk1 V c 0 ⟨0, hn⟩) (iblk1 V c 1 ⟨0, hn⟩) k1_pay1
  | n + 1, hn =>
    if (n + 1) % 11 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- At a reduction's first block. -/
theorem accAt1_first (c : Dev nD) (t : Fin cfg1.N) (h0 : t.val % 11 = 0) :
    accAt1 V c t.val t.isLt = k1_pay2 (iblk1 V c 0 t) (iblk1 V c 1 t) k1_pay1 := by
  obtain ⟨n, hn⟩ := t
  cases n with
  | zero => rfl
  | succ n => exact if_pos h0

/-- At a later block: over what the point before left. -/
theorem accAt1_next (c : Dev nD) (t : Fin cfg1.N) (h0 : ¬t.val % 11 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the accumulator at those contents -/

/-- The core's scoped buffers that are neither a staging buffer of this region nor its accumulator. -/
abbrev restBut1 (c : Dev nD) : sProp 𝕄 :=
  Pipeline.scopedRestBut (Ix := Unit) (Name := ℕ) (U := UR sig nD τ) (Lvl := ℕ) (Val := Elt F) spec1 c [cc1_scratch0]

/-- Before position `n`: before the first point every scoped buffer at anything; afterwards the accumulator at what
    the point before left in it, the other scoped buffers at anything; the generator register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ restBut1 c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ restBut1 c) ∗ (∃ r, prngReg c r)) := by
  cases n with
  | zero => exact absurd rfl hz
  | succ n => rfl

/-- The class invariant with the accumulator split out of the scoped rest. -/
theorem PhiA1_eq (c : Dev nD) :
    (Pipeline.ΦA spec1 c : sProp 𝕄)
      = iprop(((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]
  rfl

/-! ## The region's proof data -/

/-- The proof data on core `c`: the arrays as the region finds them; after the body at point `t` each input's buffer
    at its block and the result's at the accumulator's contents (read only where the block is written back: at the
    last block of each reduction); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' memrefs hold their blocks; the closed forms say which case the point is in; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 88 := lt_of_lt_of_eq t.isLt (show cfg1.N = 88 from N_1)
  by_cases h0 : t.val % 11 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [PhiS1_castSucc V c t, PhiS1_pos V c _ _ hz, accAt1_next V c t h0]
    by_cases h1 : t.val % 11 = 10
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, accAt1_next V c t h0]
      iintro ⟨⟨⟨HS0, Hr⟩, Hg⟩, Ho, ⟨%d0, H0⟩, ⟨%d1, H1⟩, ⟨%d2, H2⟩⟩
      iapply (run1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hr⟩, Hg⟩, Ho, ⟨%d0, H0⟩, ⟨%d1, H1⟩, ⟨%d2, H2⟩⟩
      iapply (run1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 88 := N_1; omega), PhiA1_eq]
  iintro ⟨⟨HS0, Hr⟩, Hg⟩
  isplitr [Hg]
  · isplitl [HS0]; · iexists _; iexact HS0
    iexact Hr
  iexact Hg

end Cert.Kernel.Frame

end
-- ==== Proof.KernelRun.lean ====
/-
  The whole program as three segments — the host operations that rebuild the three weight matrices from their
  codebooks and cast everything to the kernels' format, the gate/up region, the down region — and its run: from any
  memory, every weakly fair execution terminates, and every unscoped buffer of the TensorCore ends at the contents a
  fold through the segments names: the host operations' results, then each region's result array at what its
  write-backs leave, everything else as it was. Read at the arguments this is the frame; read at the result array it
  is the down region's final array.
-/
import proofs.«103767_j678604833231_1_alg».proof.Proof.KernelGateup
import proofs.«103767_j678604833231_1_alg».proof.Proof.KernelDown
import proofs.«103767_j678604833231_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, -/
abbrev W0 : Dev nD → Valuation τ sig (Elt F) := fun c => Gen.V0 m c
/-- after the host operations (the gate/up region's entry), -/
abbrev W1 : Dev nD → Valuation τ sig (Elt F) := fun c => Gen.V1 m c
/-- the same read at the TensorCore's references. -/
abbrev E1 : (c : Dev nD) → (b : Ref sig .tc) → Buf (Elt F) ((c : Thread nD τ).loc b) := fun c b => W1 m c b
/-- At the gate/up region's exit: the hidden layer's array at what the write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the down region's exit: the result array at what the write-backs leave, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer no host operation writes and no region may change ends as launched. -/
theorem W3_kept (c : Dev nD) (b : Ref sig .tc) (h1 : ∀ w, Pipeline.arrRef spec1 w ≠ b) (h0 : ∀ w, Pipeline.arrRef spec0 w ≠ b)
    (hh : b ∉ Gen.hostOps0_W) : W3 m c (Proc.devRef .tc b) = m ((c : Thread nD τ).loc b) :=
  (W3_of_ne m c b h1).trans <| (W2_of_ne m c b h0).trans <| (Gen.V1_of m c b hh).trans rfl

/-! ## The proof data family and the thread state -/

/-- No pipeline has a prefetched table. -/
abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (E1 m) c
  | ⟨1, _⟩ => fun c => dat1 (E2 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tn (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gate/up region over the thread state: entered from every unscoped buffer at `W1`, left at `W2`. -/
def reg0 : Pipeline.RegionSeg (pcfgs (F := F)) admF (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down region over the thread state: entered from every unscoped buffer at `W2`, left at `W3`; its invariant
    entered from, and returned to, the scoped rest and the generator register (the accumulator named in between). -/
def reg1 : Pipeline.RegionSeg (pcfgs (F := F)) admF (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lv lv 1 fun _ _ => rfl
  pre c := iprop(StableHlo.held (c : Thread nD τ) (Pipeline.ucRefs τ sig) (W2 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := hin1 (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := hout1 (E2 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev segs : List (Pipeline.Seg (pcfgs (F := F)) admF (pdats m) () defs₀ 𝒱₀ Lv lv) :=
  [ .host (hseg0 m), .region (reg0 m), .region (reg1 m) ]

/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every TensorCore ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admF (pdats m) () cellOf_inj emb₁ defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The two readings of the run -/

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide)),
     (h c _ (mem_uc main_arg7 (by decide))).trans (W3_kept m c main_arg7 (by decide) (by decide) (by decide)),
     (h c _ (mem_uc main_arg8 (by decide))).trans (W3_kept m c main_arg8 (by decide) (by decide) (by decide)),
     (h c _ (mem_uc main_arg9 (by decide))).trans (W3_kept m c main_arg9 (by decide) (by decide) (by decide))⟩) (run_main m ρ)

/-- THE RESULT: besides, the result array ends at what the down region's write-backs leave. -/
theorem run_result : θ_run defs (onTc (τ := τ) (main (F := F))) ⟨m, fun _ => 0, ρ⟩ (fun r => ∀ c : Dev nD,
      r.2.mem ((c.tc : Thread nD τ).loc main_v38) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v38 (by decide))).trans (W3_arr m c 2),
     (h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide)),
     (h c _ (mem_uc main_arg7 (by decide))).trans (W3_kept m c main_arg7 (by decide) (by decide) (by decide)),
     (h c _ (mem_uc main_arg8 (by decide))).trans (W3_kept m c main_arg8 (by decide) (by decide) (by decide)),
     (h c _ (mem_uc main_arg9 (by decide))).trans (W3_kept m c main_arg9 (by decide) (by decide) (by decide))⟩) (run_main m ρ)

end Cert.Kernel.Frame

end
-- ==== Proof.Gateup.lean ====
/-
  The gate/up projection with the fused activation, as one pipelined region: at grid point (i, n) the body
  reads a 512-row block of the activations and 512-row blocks of the two weight matrices, forms the two
  512 × 512 products over the whole hidden axis, multiplies the first by its logistic and by the second,
  and stores the result block whole. Stated at any region-entry contents `V` and any float instance: what
  each staging buffer holds before and after the body at a point, the body's triple, the region's proof
  data and its body obligation.
-/
import proofs.«103767_j678604833231_1_alg».proof.Proof.Gen.KernelIdeal.Launch
import proofs.«103767_j678604833231_1_alg».proof.Proof.Gen.KernelIdeal.Skeleton
import proofs.«103767_j678604833231_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block at every point, fetched there or not (its block
    index moves only with the first grid coordinate). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The gate weights' staging buffer holds the point's row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The up weights' staging buffer holds the point's row block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 2048 rectangle every input block is loaded through. -/
abbrev rIn0 : Rect S512x2048 := Rect.unit (s := S512x2048) ![0, 0] S512x2048.size inb_S512x2048_S512x2048_0_0
/-- The whole 512 × 512 rectangle the result block is stored through. -/
abbrev rOut0 : Rect S512x512 := Rect.unit (s := S512x512) ![0, 0] S512x512.size inb_S512x512_S512x512_0_0

/-- The result window's staging buffer after the body, from the three input blocks: one whole-block store. -/
def out0_3 (x0 x1 x2 : Vec F S512x2048 .bf16) : Vec F S512x512 .bf16 :=
  View.canon [⟨rOut0, k0_pay1 (View.ld x0 rIn0) (View.ld x1 rIn0) (View.ld x2 rIn0)⟩]

/-- The one store covers the block. -/
theorem cover0_3 (p0 : Vec F S512x512 .bf16) (y : S512x512.Idx) :
    ∃ pc ∈ ([⟨rOut0, p0⟩] : List (View.Piece (Elt F) S512x512 .bf16)), y ∈ pc.1.set :=
  View.cover_of_tiled [⟨rOut0, p0⟩] S512x512.size (by rfl) y

/-! ## The body's triple -/

set_option maxHeartbeats 4000000 in
/-- The body on whole staging memrefs: the inputs' at read contents, the result's at anything; it returns with the
    inputs' as they were and the result's at `out0_3` of the inputs'. -/
theorem sound_kernel0 (c : Dev nD) (E : Set ℕ) (i : grid0.Coords)
    (arg2 : Memref sig .tc .vmem S512x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .bf16) (harg5 : arg5.IsWhole)
    (x0 x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gateup_kernel i arg2 harg2 arg3 harg3 arg4 harg4 arg5 harg5) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data on core `c`: the arrays as the region finds them; after the body at point `t` each input's
    buffer at its block and the result's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Down.lean ====
/-
  The down projection as one pipelined region that reduces over its second grid axis: at grid point (i, k) the
  body reads a 512 × 512 block of the hidden layer and a 2048 × 512 block of the down weights, adds their product
  over the block's 512 hidden units to an accumulator kept in scratch, which it zeroes first when k = 0, and
  copies the accumulator to the result block when k = 10 (the last of the eleven blocks). Stated at any
  region-entry contents `V` and any float instance: the body's triple in each of its three control cases, what
  the accumulator holds after each point, the region's invariant (the accumulator at those contents), its proof
  data and its body obligation.
-/
import proofs.«103767_j678604833231_1_alg».proof.Proof.Gen.KernelIdeal.Launch
import proofs.«103767_j678604833231_1_alg».proof.Proof.Gen.KernelIdeal.Skeleton
import proofs.«103767_j678604833231_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A whole-buffer store decides what the buffer reads back -/

/-- The offset of every whole-buffer rectangle of rank two. -/
theorem off2_zero : (![0, 0] : Fin 2 → ℕ) = fun _ => 0 := by
  funext a; fin_cases a <;> rfl

/-- After a list of stores whose LAST is a store of `w` through the buffer's whole rectangle, the buffer reads `w`,
    whatever the earlier stores and the prior contents were. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The down weights' staging buffer holds the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first block of the reduction" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
/-- "This is the last block of the reduction" (k = 10), as the body computes it. -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

/-- The inputs are never idle; the result window is idle, and not written back, exactly off the last block. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's triple, case by case -/

/-- The accumulator, a whole scoped buffer of the kernel's own. -/
abbrev scM1 : Memref sig .tc .vmem S512x2048 .f32 := Memref.whole cc1_scratch0

set_option maxHeartbeats 4000000 in
/-- FIRST BLOCK (k = 0): the accumulator, found at anything, is zeroed and the block's product added; the result
    buffer is handed back as found. -/
theorem run1_first (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : cond1_0 i) (hc1 : ¬cond1_1 i)
    (x0 : Vec F S512x512 .bf16) (x1 : Vec F S2048x512 .bf16) (y : Vec F S512x2048 .f32) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 k1_pay1)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%f4, %hf4, H4⟩, ⟨%ds0, %fs0, -, HS0⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS0
  ipureintro
  sl_unfold_words
  rw [read_writes_whole _ _ off2_zero]
  simp only [View.readAt_eq_ld, harg2.read_unread, harg3.read_unread, View.ld_unit_zero (S := S512x512) off2_zero,
    View.ld_unit_zero (S := S2048x512) off2_zero, View.readCov_unit_zero (S := S512x2048) _ off2_zero]

set_option maxHeartbeats 4000000 in
/-- A MIDDLE BLOCK (0 < k < 10): the block's product is added to the accumulator, found at `a`; the result buffer is
    handed back as found. -/
theorem run1_mid (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : ¬cond1_0 i) (hc1 : ¬cond1_1 i)
    (x0 : Vec F S512x512 .bf16) (x1 : Vec F S2048x512 .bf16) (y a : Vec F S512x2048 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%f4, %hf4, H4⟩, ⟨%fs0, %hfs0, HS0⟩, Hk⟩
  obtain rfl := harg2.eq_unread hf0; obtain rfl := harg3.eq_unread hf1; obtain rfl := harg4.eq_unread hf4
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS0
  ipureintro
  sl_unfold_words
  rw [read_writes_whole _ _ off2_zero]
  simp only [View.readAt_eq_ld, harg2.read_unread, harg3.read_unread, harg5.read_unread, View.ld_unit_zero (S := S512x512) off2_zero,
    View.ld_unit_zero (S := S2048x512) off2_zero, View.ld_unit_zero (S := S512x2048) off2_zero]

set_option maxHeartbeats 4000000 in
/-- THE LAST BLOCK (k = 10): the block's product is added to the accumulator, found at `a`, and the sum copied to the
    result buffer, found at anything. -/
theorem run1_last (c : Dev nD) (E : Set ℕ) (i : grid1.Coords)
    (arg2 : Memref sig .tc .vmem S512x512 .bf16) (harg2 : arg2.IsWhole) (arg3 : Memref sig .tc .vmem S2048x512 .bf16) (harg3 : arg3.IsWhole)
    (arg4 : Memref sig .tc .vmem S512x2048 .f32) (harg4 : arg4.IsWhole) (arg5 : Memref sig .tc .vmem S512x2048 .f32) (harg5 : arg5.IsWhole)
    (hc0 : ¬cond1_0 i) (hc1 : cond1_1 i)
    (x0 : Vec F S512x512 .bf16) (x1 : Vec F S2048x512 .bf16) (a : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (k1_pay2 x0 x1 a)
            ∗ owns (c : Thread nD τ) arg5 fullShare (k1_pay2 x0 x1 a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%d4, %f4, -, H4⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_whole _ _ off2_zero]
    simp only [View.readAt_eq_ld, harg2.read_unread, harg3.read_unread, harg5.read_unread, View.ld_unit_zero (S := S512x512) off2_zero,
      View.ld_unit_zero (S := S2048x512) off2_zero, View.ld_unit_zero (S := S512x2048) off2_zero,
      View.readCov_unit_zero (S := S512x2048) _ off2_zero]
  iexists _; isplitr
  swap; · iexact HS0
  ipureintro
  sl_unfold_words
  rw [read_writes_whole _ _ off2_zero]
  simp only [View.readAt_eq_ld, harg2.read_unread, harg3.read_unread, harg5.read_unread, View.ld_unit_zero (S := S512x512) off2_zero,
    View.ld_unit_zero (S := S2048x512) off2_zero, View.ld_unit_zero (S := S512x2048) off2_zero]

/-! ## What the accumulator holds after each point -/

/-- The accumulator after the body at position `n`: at the first block of a reduction the block's product over
    zero, at the later blocks over what the point before left. -/
def accAt1 (c : Dev nD) : (n : ℕ) → n < cfg1.N → Vec F S512x2048 .f32
  | 0, hn => k1_pay2 (iblk1 V c 0 ⟨0, hn⟩) (iblk1 V c 1 ⟨0, hn⟩) k1_pay1
  | n + 1, hn =>
    if (n + 1) % 11 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- At a reduction's first block. -/
theorem accAt1_first (c : Dev nD) (t : Fin cfg1.N) (h0 : t.val % 11 = 0) :
    accAt1 V c t.val t.isLt = k1_pay2 (iblk1 V c 0 t) (iblk1 V c 1 t) k1_pay1 := by
  obtain ⟨n, hn⟩ := t
  cases n with
  | zero => rfl
  | succ n => exact if_pos h0

/-- At a later block: over what the point before left. -/
theorem accAt1_next (c : Dev nD) (t : Fin cfg1.N) (h0 : ¬t.val % 11 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the accumulator at those contents -/

/-- The core's scoped buffers that are neither a staging buffer of this region nor its accumulator. -/
abbrev restBut1 (c : Dev nD) : sProp 𝕄 :=
  Pipeline.scopedRestBut (Ix := Unit) (Name := ℕ) (U := UR sig nD τ) (Lvl := ℕ) (Val := Elt F) spec1 c [cc1_scratch0]

/-- Before position `n`: before the first point every scoped buffer at anything; afterwards the accumulator at what
    the point before left in it, the other scoped buffers at anything; the generator register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ restBut1 c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ restBut1 c) ∗ (∃ r, prngReg c r)) := by
  cases n with
  | zero => exact absurd rfl hz
  | succ n => rfl

/-- The class invariant with the accumulator split out of the scoped rest. -/
theorem PhiA1_eq (c : Dev nD) :
    (Pipeline.ΦA spec1 c : sProp 𝕄)
      = iprop(((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]
  rfl

/-! ## The region's proof data -/

/-- The proof data on core `c`: the arrays as the region finds them; after the body at point `t` each input's buffer
    at its block and the result's at the accumulator's contents (read only where the block is written back: at the
    last block of each reduction); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' memrefs hold their blocks; the closed forms say which case the point is in; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 88 := lt_of_lt_of_eq t.isLt (show cfg1.N = 88 from N_1)
  by_cases h0 : t.val % 11 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [PhiS1_castSucc V c t, PhiS1_pos V c _ _ hz, accAt1_next V c t h0]
    by_cases h1 : t.val % 11 = 10
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, accAt1_next V c t h0]
      iintro ⟨⟨⟨HS0, Hr⟩, Hg⟩, Ho, ⟨%d0, H0⟩, ⟨%d1, H1⟩, ⟨%d2, H2⟩⟩
      iapply (run1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hr⟩, Hg⟩, Ho, ⟨%d0, H0⟩, ⟨%d1, H1⟩, ⟨%d2, H2⟩⟩
      iapply (run1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitr [Hg]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 88 := N_1; omega), PhiA1_eq]
  iintro ⟨⟨HS0, Hr⟩, Hg⟩
  isplitr [Hg]
  · isplitl [HS0]; · iexists _; iexact HS0
    iexact Hr
  iexact Hg

end Cert.KernelIdeal.Frame

end
-- ==== Proof.Run.lean ====
/-
  The whole program as three segments — the host operations that rebuild the three weight matrices from their
  codebooks and cast everything to the kernels' format, the gate/up region, the down region — and its run: from any
  memory, every weakly fair execution terminates, and every unscoped buffer of the TensorCore ends at the contents a
  fold through the segments names: the host operations' results, then each region's result array at what its
  write-backs leave, everything else as it was. Read at the arguments this is the frame; read at the result array it
  is the down region's final array.
-/
import proofs.«103767_j678604833231_1_alg».proof.Proof.Gateup
import proofs.«103767_j678604833231_1_alg».proof.Proof.Down
import proofs.«103767_j678604833231_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, -/
abbrev W0 : Dev nD → Valuation τ sig (Elt F) := fun c => Gen.V0 m c
/-- after the host operations (the gate/up region's entry), -/
abbrev W1 : Dev nD → Valuation τ sig (Elt F) := fun c => Gen.V1 m c
/-- the same read at the TensorCore's references. -/
abbrev E1 : (c : Dev nD) → (b : Ref sig .tc) → Buf (Elt F) ((c : Thread nD τ).loc b) := fun c b => W1 m c b
/-- At the gate/up region's exit: the hidden layer's array at what the write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the down region's exit: the result array at what the write-backs leave, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer no host operation writes and no region may change ends as launched. -/
theorem W3_kept (c : Dev nD) (b : Ref sig .tc) (h1 : ∀ w, Pipeline.arrRef spec1 w ≠ b) (h0 : ∀ w, Pipeline.arrRef spec0 w ≠ b)
    (hh : b ∉ Gen.hostOps0_W) : W3 m c (Proc.devRef .tc b) = m ((c : Thread nD τ).loc b) :=
  (W3_of_ne m c b h1).trans <| (W2_of_ne m c b h0).trans <| (Gen.V1_of m c b hh).trans rfl

/-! ## The proof data family and the thread state -/

/-- No pipeline has a prefetched table. -/
abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (E1 m) c
  | ⟨1, _⟩ => fun c => dat1 (E2 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tn (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gate/up region over the thread state: entered from every unscoped buffer at `W1`, left at `W2`. -/
def reg0 : Pipeline.RegionSeg (pcfgs (F := F)) admF (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down region over the thread state: entered from every unscoped buffer at `W2`, left at `W3`; its invariant
    entered from, and returned to, the scoped rest and the generator register (the accumulator named in between). -/
def reg1 : Pipeline.RegionSeg (pcfgs (F := F)) admF (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lv lv 1 fun _ _ => rfl
  pre c := iprop(StableHlo.held (c : Thread nD τ) (Pipeline.ucRefs τ sig) (W2 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := hin1 (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := hout1 (E2 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev segs : List (Pipeline.Seg (pcfgs (F := F)) admF (pdats m) () defs₀ 𝒱₀ Lv lv) :=
  [ .host (hseg0 m), .region (reg0 m), .region (reg1 m) ]

/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every TensorCore ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admF (pdats m) () cellOf_inj emb₁ defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The two readings of the run -/

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide)),
     (h c _ (mem_uc main_arg7 (by decide))).trans (W3_kept m c main_arg7 (by decide) (by decide) (by decide)),
     (h c _ (mem_uc main_arg8 (by decide))).trans (W3_kept m c main_arg8 (by decide) (by decide) (by decide)),
     (h c _ (mem_uc main_arg9 (by decide))).trans (W3_kept m c main_arg9 (by decide) (by decide) (by decide))⟩) (run_main m ρ)

/-- THE RESULT: besides, the result array ends at what the down region's write-backs leave. -/
theorem run_result : θ_run defs (onTc (τ := τ) (main (F := F))) ⟨m, fun _ => 0, ρ⟩ (fun r => ∀ c : Dev nD,
      r.2.mem ((c.tc : Thread nD τ).loc main_v38) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v38 (by decide))).trans (W3_arr m c 2),
     (h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide)),
     (h c _ (mem_uc main_arg7 (by decide))).trans (W3_kept m c main_arg7 (by decide) (by decide) (by decide)),
     (h c _ (mem_uc main_arg8 (by decide))).trans (W3_kept m c main_arg8 (by decide) (by decide) (by decide)),
     (h c _ (mem_uc main_arg9 (by decide))).trans (W3_kept m c main_arg9 (by decide) (by decide) (by decide))⟩) (run_main m ρ)

end Cert.KernelIdeal.Frame

end
-- ==== Proof.Spec.lean ====
/-
  The mathematics both programs compute, as functions of four arrays of extended reals: the activations
  `x` (4096 × 2048), the gate and up weights `wg`, `wu` (5632 × 2048) and the down weights `wd` (2048 × 5632).
  `hidden` is the gated hidden layer  silu(x · wgᵀ) ∗ (x · wuᵀ)  with  silu g = g · 1 / (1 + e⁻ᵍ);
  `down` is the contraction of the hidden axis against the down weights;  `out` is their composition.
  The one law proved here joins the two ways the contraction over the 5632 hidden units is grouped: as one sum,
  or as eleven blocks of 512 accumulated in order from zero. Addition of extended reals is commutative and
  associative, so the regrouping needs no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![4096, 2048]⟩
abbrev SW : Shape := ⟨2, ![5632, 2048]⟩
abbrev SH : Shape := ⟨2, ![4096, 5632]⟩
abbrev SD : Shape := ⟨2, ![2048, 5632]⟩

/-- The gated activation  g ↦ g · logistic g. -/
def silu (g : EReal) : EReal := g * Ideal.logistic g

/-- Row `p` of the activations against row `q` of a weight matrix: the sum over the 2048 hidden coordinates. -/
def proj (x : SX.Idx → EReal) (w : SW.Idx → EReal) (p : Fin 4096) (q : Fin 5632) : EReal :=
  ∑ j : Fin 2048, x (ix2 p j) * w (ix2 q j)

/-- The gated hidden layer at (token `p`, unit `q`). -/
def hiddenAt (x : SX.Idx → EReal) (wg wu : SW.Idx → EReal) (p : Fin 4096) (q : Fin 5632) : EReal :=
  silu (proj x wg p q) * proj x wu p q

/-- The gated hidden layer as an array. -/
def hidden (x : SX.Idx → EReal) (wg wu : SW.Idx → EReal) : SH.Idx → EReal :=
  fun i => hiddenAt x wg wu (i 0) (i 1)

/-- The down projection at (token `p`, output coordinate `n`): the sum over all 5632 hidden units. -/
def downAt (h : SH.Idx → EReal) (wd : SD.Idx → EReal) (p : Fin 4096) (n : Fin 2048) : EReal :=
  ∑ k : Fin 5632, h (ix2 p k) * wd (ix2 n k)

/-- The down projection as an array. -/
def down (h : SH.Idx → EReal) (wd : SD.Idx → EReal) : SX.Idx → EReal :=
  fun i => downAt h wd (i 0) (i 1)

/-- The whole expert: the down projection of the gated hidden layer. -/
def out (x : SX.Idx → EReal) (wg wu : SW.Idx → EReal) (wd : SD.Idx → EReal) : SX.Idx → EReal :=
  down (hidden x wg wu) wd

/-- Hidden unit number `512 · b + k` of block `b`; the block number is read modulo 11, so that every natural names a block. -/
def unit (b : ℕ) (k : Fin 512) : Fin 5632 := ⟨512 * (b % 11) + k.val, by have := k.isLt; omega⟩

/-- The partial contraction over the hidden units of the blocks `0 … b` (inclusive), accumulated in order from zero. -/
def partialDown (f : Fin 5632 → EReal) (b : ℕ) : EReal := 0 + ∑ s ∈ Finset.range (b + 1), ∑ k : Fin 512, f (unit s k)

/-- After the first block: zero plus its 512 products. -/
theorem partialDown_zero (f : Fin 5632 → EReal) : partialDown f 0 = 0 + ∑ k : Fin 512, f (unit 0 k) := by
  unfold partialDown; rw [Finset.sum_range_one]

/-- Each later block adds its 512 products. -/
theorem partialDown_succ (f : Fin 5632 → EReal) (b : ℕ) :
    partialDown f (b + 1) = partialDown f b + ∑ k : Fin 512, f (unit (b + 1) k) := by
  unfold partialDown; rw [Finset.sum_range_succ _ (b + 1), add_assoc]

/-- Eleven blocks of 512, accumulated in order from zero, are the one sum over 5632: the pairs (block, unit in the
    block) are the 5632 hidden units, each once. -/
theorem partialDown_last (f : Fin 5632 → EReal) : partialDown f 10 = ∑ k : Fin 5632, f k := by
  unfold partialDown
  calc 0 + ∑ s ∈ Finset.range (10 + 1), ∑ k : Fin 512, f (unit s k)
      = ∑ s : Fin 11, ∑ k : Fin 512, f (unit s.val k) := by
        rw [zero_add]; exact Finset.sum_range (fun s => ∑ k : Fin 512, f (unit s k))
    _ = ∑ x : Fin 11 × Fin 512, f (unit x.1.val x.2) :=
        (Fintype.sum_prod_type' (fun (s : Fin 11) (k : Fin 512) => f (unit s.val k))).symm
    _ = ∑ k : Fin 5632, f k :=
        Fintype.sum_equiv (finProdFinEquiv (m := 11) (n := 512)) _ _ (fun x => congrArg f (Fin.ext (by
          show 512 * (x.1.val % 11) + x.2.val = x.2.val + 512 * x.1.val
          have := x.1.isLt; omega)))

end Cert.Spec

end
-- ==== Proof.GateupValue.lean ====
/-
  What the gate/up region leaves in the hidden layer's array, over the extended reals: block (i, n) of the array is
  what grid point (i, n) wrote, the 88 blocks tile the 4096 × 5632 array, and the block's entry at (r, q) is
  silu(Σⱼ x[512 i + r, j] · wg[512 n + q, j]) · Σⱼ x[512 i + r, j] · wu[512 n + q, j]  — the matrix unit's product into
  a zero accumulator is the plain sum, the format change at the store is the identity. So the array is `Spec.hidden`
  of the region's three input arrays, index by index.
-/
import proofs.«103767_j678604833231_1_alg».proof.Proof.Gateup
import proofs.«103767_j678604833231_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

/-! The product's index bookkeeping: the left factor is read at (row of the result, contracted coordinate), the right
    factor at (column of the result, contracted coordinate) — both blocks are contracted along their second axis. -/

/-- The left factor's row is the result's row. -/
theorem lhs_row (j : S512x512.Idx) (k : dot_S512x2048_S512x2048_S512x512_1_1_0_0_n_n.contr.Idx) :
    (dot_S512x2048_S512x2048_S512x512_1_1_0_0_n_n.lhsIdx j k 0).val = (j 0).val := by
  simp [DotDims.lhsIdx, dot_S512x2048_S512x2048_S512x512_1_1_0_0_n_n]; rfl

/-- The left factor's column is the contracted coordinate. -/
theorem lhs_col (j : S512x512.Idx) (k : dot_S512x2048_S512x2048_S512x512_1_1_0_0_n_n.contr.Idx) :
    (dot_S512x2048_S512x2048_S512x512_1_1_0_0_n_n.lhsIdx j k 1).val = (k ⟨0, by decide⟩).val :=
  dot_S512x2048_S512x2048_S512x512_1_1_0_0_n_n.lhsIdx_val_of_single rfl j k

/-- The right factor's row is the result's column. -/
theorem rhs_row (j : S512x512.Idx) (k : dot_S512x2048_S512x2048_S512x512_1_1_0_0_n_n.contr.Idx) :
    (dot_S512x2048_S512x2048_S512x512_1_1_0_0_n_n.rhsIdx j k 0).val = (j 1).val := by
  simp [DotDims.rhsIdx, dot_S512x2048_S512x2048_S512x512_1_1_0_0_n_n]; rfl

/-- The right factor's column is the contracted coordinate. -/
theorem rhs_col (j : S512x512.Idx) (k : dot_S512x2048_S512x2048_S512x512_1_1_0_0_n_n.contr.Idx) :
    (dot_S512x2048_S512x2048_S512x512_1_1_0_0_n_n.rhsIdx j k 1).val = (k ⟨0, by decide⟩).val :=
  dot_S512x2048_S512x2048_S512x512_1_1_0_0_n_n.rhsIdx_val_of_single rfl j k

/-- One matrix-unit product into a zero accumulator, at (r, q): the plain sum over the 2048 contracted coordinates of
    row r of the left block against row q of the right block. -/
theorem product_at (x w : FVec Ideal S512x2048 .bf16) (r q : Fin 512) :
    matmul dot_S512x2048_S512x2048_S512x512_1_1_0_0_n_n none x w (constant (F := Ideal) S512x512 .f32 0x00000000#32) (ix2 r q)
      = ∑ j : Fin 2048, x (ix2 r j) * w (ix2 q j) := by
  show FloatOps.matmul _ none x w _ (ix2 r q) = _
  rw [Ideal.matmul_constant_zero_apply,
    ← Equiv.sum_comp (contrEquiv1 dot_S512x2048_S512x2048_S512x512_1_1_0_0_n_n 2048 rfl rfl).symm]
  refine Finset.sum_congr rfl fun c _ => ?_
  have hc := contrEquiv1_symm_val dot_S512x2048_S512x2048_S512x512_1_1_0_0_n_n 2048 rfl rfl c
  have hl : dot_S512x2048_S512x2048_S512x512_1_1_0_0_n_n.lhsIdx (ix2 r q)
      ((contrEquiv1 dot_S512x2048_S512x2048_S512x512_1_1_0_0_n_n 2048 rfl rfl).symm c) = ix2 r c := by
    funext ax; apply Fin.ext
    match ax with
    | ⟨0, _⟩ => exact lhs_row _ _
    | ⟨1, _⟩ => exact (lhs_col _ _).trans hc
  have hr : dot_S512x2048_S512x2048_S512x512_1_1_0_0_n_n.rhsIdx (ix2 r q)
      ((contrEquiv1 dot_S512x2048_S512x2048_S512x512_1_1_0_0_n_n 2048 rfl rfl).symm c) = ix2 q c := by
    funext ax; apply Fin.ext
    match ax with
    | ⟨0, _⟩ => exact rhs_row _ _
    | ⟨1, _⟩ => exact (rhs_col _ _).trans hc
  rw [hl, hr]

/-- The body's arithmetic at (r, q) of the result block: the gated product of the two projections of row r of the
    activations' block against row q of the gate and up weights' blocks; the store's format change is the identity. -/
theorem payload_at (x0 x1 x2 : Vec Ideal S512x2048 .bf16) (r q : Fin 512) :
    k0_pay1 x0 x1 x2 (ix2 r q)
      = Cert.Spec.silu (∑ j : Fin 2048, x0 (ix2 r j) * x1 (ix2 q j)) * (∑ j : Fin 2048, x0 (ix2 r j) * x2 (ix2 q j)) := by
  unfold k0_pay1
  simp only [shapeCast_self]
  show (matmul dot_S512x2048_S512x2048_S512x512_1_1_0_0_n_n none x0 x1 (constant (F := Ideal) S512x512 .f32 0x00000000#32) (ix2 r q)
      * Ideal.logistic (matmul dot_S512x2048_S512x2048_S512x512_1_1_0_0_n_n none x0 x1 (constant (F := Ideal) S512x512 .f32 0x00000000#32) (ix2 r q)))
      * matmul dot_S512x2048_S512x2048_S512x512_1_1_0_0_n_n none x0 x2 (constant (F := Ideal) S512x512 .f32 0x00000000#32) (ix2 r q) = _
  rw [product_at, product_at]
  rfl

variable (V : (c : Dev nD) → (b : Ref sig .tc) → Buf (Elt Ideal) ((c : Thread nD τ).loc b))

/-- The whole-block rectangles sit at offset zero on both axes. -/
theorem zero_offsets : (![0, 0] : Fin 2 → Nat) = fun _ => 0 := funext fun a => by fin_cases a <;> rfl

/-- The block's entry from entries of the whole arrays: when row r of the activations' block is row p of the
    activations and row q of each weight block is row u of that weight matrix, entry (r, q) of the body's result is the
    gated hidden layer at (p, u). -/
theorem block_entry (X : Cert.Spec.SX.Idx → EReal) (Wg Wu : Cert.Spec.SW.Idx → EReal) (x0 x1 x2 : Vec Ideal S512x2048 .bf16)
    (r q : Fin 512) (p : Fin 4096) (u : Fin 5632)
    (h0 : ∀ j : Fin 2048, x0 (ix2 r j) = X (ix2 p j))
    (h1 : ∀ j : Fin 2048, x1 (ix2 q j) = Wg (ix2 u j))
    (h2 : ∀ j : Fin 2048, x2 (ix2 q j) = Wu (ix2 u j)) :
    k0_pay1 x0 x1 x2 (ix2 r q) = Cert.Spec.hiddenAt X Wg Wu p u := by
  rw [payload_at]
  unfold Cert.Spec.hiddenAt Cert.Spec.proj
  simp only [h0, h1, h2]

/-- The four index maps over the 88 grid points t = 11 i + n: the activations' block index is (i, 0), both weight
    blocks' (n, 0), the result's (i, n). -/
theorem index_maps : ∀ t : Fin cfg0.N,
    win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val % 11 ∧ win0_2.index t (1 : Fin 2) = 0
    ∧ win0_3.index t (0 : Fin 2) = t.val / 11 ∧ win0_3.index t (1 : Fin 2) = t.val % 11 :=
  (by decide +kernel : ∀ t : Fin grid0.N, _)

/-- Row r of the activations' block at point t = 11 i + n is row 512 i + r of the activations. -/
theorem x_block_at (c : Dev nD) (t : Fin cfg0.N) (r : Fin 512) (j : Fin 2048) (p : Fin 4096)
    (hp : p.val = 512 * (t.val / 11) + r.val) :
    (iblk0 V c 0 t : Vec Ideal S512x2048 .bf16) (ix2 r j) = (V c main_v33 : Cert.Spec.SX.Idx → EReal) (ix2 p j) := by
  obtain ⟨e0, e1, -⟩ := index_maps t
  unfold iblk0
  rw [View.read_apply]
  show V c main_v33 _ = V c main_v33 _
  congr 1
  funext a
  apply Fin.ext
  match a with
  | ⟨0, _⟩ => show win0_0.index t (0 : Fin 2) * 512 + 1 * r.val = p.val; omega
  | ⟨1, _⟩ => show win0_0.index t (1 : Fin 2) * 2048 + 1 * j.val = j.val; omega

/-- Row q of the gate weights' block at point t = 11 i + n is row 512 n + q of the gate weights. -/
theorem gate_block_at (c : Dev nD) (t : Fin cfg0.N) (q : Fin 512) (j : Fin 2048) (u : Fin 5632)
    (hu : u.val = 512 * (t.val % 11) + q.val) :
    (iblk0 V c 1 t : Vec Ideal S512x2048 .bf16) (ix2 q j) = (V c main_v34 : Cert.Spec.SW.Idx → EReal) (ix2 u j) := by
  obtain ⟨-, -, e2, e3, -⟩ := index_maps t
  unfold iblk0
  rw [View.read_apply]
  show V c main_v34 _ = V c main_v34 _
  congr 1
  funext a
  apply Fin.ext
  match a with
  | ⟨0, _⟩ => show win0_1.index t (0 : Fin 2) * 512 + 1 * q.val = u.val; omega
  | ⟨1, _⟩ => show win0_1.index t (1 : Fin 2) * 2048 + 1 * j.val = j.val; omega

/-- Row q of the up weights' block at point t = 11 i + n is row 512 n + q of the up weights. -/
theorem up_block_at (c : Dev nD) (t : Fin cfg0.N) (q : Fin 512) (j : Fin 2048) (u : Fin 5632)
    (hu : u.val = 512 * (t.val % 11) + q.val) :
    (iblk0 V c 2 t : Vec Ideal S512x2048 .bf16) (ix2 q j) = (V c main_v35 : Cert.Spec.SW.Idx → EReal) (ix2 u j) := by
  obtain ⟨-, -, -, -, e4, e5, -⟩ := index_maps t
  unfold iblk0
  rw [View.read_apply]
  show V c main_v35 _ = V c main_v35 _
  congr 1
  funext a
  apply Fin.ext
  match a with
  | ⟨0, _⟩ => show win0_2.index t (0 : Fin 2) * 512 + 1 * q.val = u.val; omega
  | ⟨1, _⟩ => show win0_2.index t (1 : Fin 2) * 2048 + 1 * j.val = j.val; omega

/-- What point t = 11 i + n writes back is block (i, n) of the gated hidden layer of the region's input arrays. -/
theorem written_back (c : Dev nD) (t : Fin cfg0.N) :
    (dat0 (F := Ideal) V c).flushed 3 t
      = ((cfg0.win 3).blk t).view.read (Elt Ideal) (Cert.Spec.hidden (V c main_v33) (V c main_v34) (V c main_v35)) := by
  show (cfg0.win 3).cut (grid0.coords t) ((dat0 (F := Ideal) V c).after 3 t) = _
  rw [after0_3]
  unfold out0_3
  rw [View.canon_unit_zero zero_offsets]
  simp only [View.ld_unit_zero (S := S512x2048) zero_offsets]
  obtain ⟨-, -, -, -, -, -, e6, e7⟩ := index_maps t
  have hN : cfg0.N = 88 := N_0
  have ht : t.val < 88 := hN ▸ t.isLt
  funext y
  obtain ⟨r, q, rfl⟩ : ∃ (r : Fin 512) (q : Fin 512), y = ix2 r q := ⟨y 0, y 1, eq_ix2 y⟩
  have hr : r.val < 512 := r.isLt
  have hq : q.val < 512 := q.isLt
  rw [View.read_apply]
  refine (block_entry (V c main_v33) (V c main_v34) (V c main_v35) (iblk0 V c 0 t) (iblk0 V c 1 t) (iblk0 V c 2 t) r q
    ⟨512 * (t.val / 11) + r.val, by omega⟩ ⟨512 * (t.val % 11) + q.val, by omega⟩
    (fun j => x_block_at V c t r j _ rfl) (fun j => gate_block_at V c t q j _ rfl) (fun j => up_block_at V c t q j _ rfl)).trans ?_
  unfold Cert.Spec.hidden
  congr 1
  · apply Fin.ext
    show 512 * (t.val / 11) + r.val = win0_3.index t (0 : Fin 2) * 512 + 1 * r.val
    omega
  · apply Fin.ext
    show 512 * (t.val % 11) + q.val = win0_3.index t (1 : Fin 2) * 512 + 1 * q.val
    omega

/-- An index of the hidden layer's array is in point t's block iff each coordinate is in the block's range on its axis. -/
theorem mem_block (t : Fin cfg0.N) (i : S4096x5632.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v37).slice (win0_3.rect t)).set ↔ _
  rw [View.set_slice_whole, Rect.mem_set_unit]
  exact Iff.rfl

/-- The 88 blocks tile the 4096 × 5632 array: entry (p, u) lies in the block of point 11 (p / 512) + u / 512. -/
theorem covered (i : S4096x5632.Idx) :
    ∃ t : Fin cfg0.N, (cfg0.win 3).flush t = true ∧ i ∈ ((cfg0.win 3).blk t).view.set := by
  have hi0 : (i 0).val < 4096 := (i 0).isLt
  have hi1 : (i 1).val < 5632 := (i 1).isLt
  have hN : cfg0.N = 88 := N_0
  have hlt : 11 * ((i 0).val / 512) + (i 1).val / 512 < cfg0.N := by rw [hN]; omega
  obtain ⟨-, -, -, -, -, -, e6, e7⟩ := index_maps ⟨11 * ((i 0).val / 512) + (i 1).val / 512, hlt⟩
  refine ⟨⟨11 * ((i 0).val / 512) + (i 1).val / 512, hlt⟩, flush0_3 _, ?_⟩
  rw [mem_block]
  intro a
  match a with
  | ⟨0, _⟩ =>
    show win0_3.index ⟨11 * ((i 0).val / 512) + (i 1).val / 512, hlt⟩ (0 : Fin 2) * 512 ≤ (i 0).val
      ∧ (i 0).val < win0_3.index ⟨11 * ((i 0).val / 512) + (i 1).val / 512, hlt⟩ (0 : Fin 2) * 512 + 512
    rw [e6]
    show (11 * ((i 0).val / 512) + (i 1).val / 512) / 11 * 512 ≤ (i 0).val
      ∧ (i 0).val < (11 * ((i 0).val / 512) + (i 1).val / 512) / 11 * 512 + 512
    omega
  | ⟨1, _⟩ =>
    show win0_3.index ⟨11 * ((i 0).val / 512) + (i 1).val / 512, hlt⟩ (1 : Fin 2) * 512 ≤ (i 1).val
      ∧ (i 1).val < win0_3.index ⟨11 * ((i 0).val / 512) + (i 1).val / 512, hlt⟩ (1 : Fin 2) * 512 + 512
    rw [e7]
    show (11 * ((i 0).val / 512) + (i 1).val / 512) % 11 * 512 ≤ (i 1).val
      ∧ (i 1).val < (11 * ((i 0).val / 512) + (i 1).val / 512) % 11 * 512 + 512
    omega

/-- The hidden layer's array after the gate/up region is the gated hidden layer of the region's input arrays. -/
theorem gateup_final (c : Dev nD) :
    (dat0 (F := Ideal) V c).arrAt 3 cfg0.N = Cert.Spec.hidden (V c main_v33) (V c main_v34) (V c main_v35) := by
  exact (dat0 (F := Ideal) V c).arrAt_eq_of_cover 3 (Cert.Spec.hidden (V c main_v33) (V c main_v34) (V c main_v35))
    (fun t _ => written_back V c t) covered

end Cert.KernelIdeal.Val

end
-- ==== Proof.DownValue.lean ====
/-
  What the down region leaves in the result array, over the extended reals: the accumulator after point (i, k) holds,
  at (r, n), the sum over the hidden units of blocks 0 … k of  h[512 i + r, u] · wd[n, u]  (zeroed at k = 0, one block's
  product added per point); the result block i is written back once, at k = 10, from the accumulator; the 8 row blocks
  tile the 4096 × 2048 array. Eleven blocks of 512 accumulated in order are the one sum over 5632 (`Spec.partialDown_last`),
  so the array is `Spec.down` of the region's two input arrays, index by index.
-/
import proofs.«103767_j678604833231_1_alg».proof.Proof.Down
import proofs.«103767_j678604833231_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

/-! ## One block's product at an index -/

/-- The down product's left operand index on its row axis is the result's row. -/
theorem lhs_down_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
/-- On its hidden axis it is the contraction's coordinate. -/
theorem lhs_down_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- The right operand index on its output axis is the result's column. -/
theorem rhs_down_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
/-- On its hidden axis it is the contraction's coordinate. -/
theorem rhs_down_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- A hidden block against a weight block, into zero, at (r, n): the sum over the block's 512 hidden units. -/
theorem blockProduct_apply (x0 : FVec Ideal S512x512 .bf16) (x1 : FVec Ideal S2048x512 .bf16) (r : Fin 512) (n : Fin 2048) :
    matmul dot_S512x512_S2048x512_S512x2048_1_1_0_0_n_n none x0 x1 (constant (F := Ideal) S512x2048 .f32 0x00000000#32) (ix2 r n)
      = ∑ u : Fin 512, x0 (ix2 r u) * x1 (ix2 n u) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r n) ((contrEquiv1 dot_S512x512_S2048x512_S512x2048_1_1_0_0_n_n 512 rfl rfl).symm k) = ix2 r k :=
    funext fun a => Fin.ext (by
      match a with
      | ⟨0, _⟩ => exact lhs_down_0 _ _
      | ⟨1, _⟩ => exact (lhs_down_1 _ _).trans hk)
  have er : dot_S512x512_S2048x512_S512x2048_1_1_0_0_n_n.rhsIdx (ix2 r n) ((contrEquiv1 dot_S512x512_S2048x512_S512x2048_1_1_0_0_n_n 512 rfl rfl).symm k) = ix2 n k :=
    funext fun a => Fin.ext (by
      match a with
      | ⟨0, _⟩ => exact rhs_down_0 _ _
      | ⟨1, _⟩ => exact (rhs_down_1 _ _).trans hk)
  rw [el, er]

/-- One step of the accumulation at (r, n): the accumulator there plus the block's contraction. -/
theorem step_apply (x0 : Vec Ideal S512x512 .bf16) (x1 : Vec Ideal S2048x512 .bf16) (a : Vec Ideal S512x2048 .f32)
    (r : Fin 512) (n : Fin 2048) :
    k1_pay2 x0 x1 a (ix2 r n) = a (ix2 r n) + ∑ u : Fin 512, x0 (ix2 r u) * x1 (ix2 n u) := by
  unfold k1_pay2
  simp only [shapeCast_self]
  refine (addf_apply _ _ _).trans ?_
  exact congrArg (a (ix2 r n) + ·) (blockProduct_apply x0 x1 r n)

/-- The accumulator's reset value is zero everywhere. -/
theorem reset_apply (i : S512x2048.Idx) : k1_pay1 (F := Ideal) i = 0 := by
  unfold k1_pay1
  simp only [shapeCast_self]
  exact Ideal.ofBits_zero_f32

/-! ## The windows' blocks, read off their arrays -/

variable (V : (c : Dev nD) → (b : Ref sig .tc) → Buf (Elt Ideal) ((c : Thread nD τ).loc b))

/-- The windows' index maps over the grid: at point t = 11 i + k the hidden block is (i, k), the weight block (0, k),
    the result block (i, 0). -/
theorem index_facts : ∀ t : Fin cfg1.N, win1_0.index t (0 : Fin 2) = t.val / 11 ∧ win1_0.index t (1 : Fin 2) = t.val % 11
    ∧ win1_1.index t (0 : Fin 2) = 0 ∧ win1_1.index t (1 : Fin 2) = t.val % 11
    ∧ win1_2.index t (0 : Fin 2) = t.val / 11 ∧ win1_2.index t (1 : Fin 2) = 0 :=
  (by decide +kernel : ∀ t : Fin grid1.N, _)

/-- The hidden block at point t, at (r, u): the hidden layer at row 512 (t / 11) + r, unit 512 (t % 11) + u. -/
theorem hiddenBlock_apply (c : Dev nD) (t : Fin cfg1.N) (r u : Fin 512) (p : Fin 4096) (q : Fin 5632)
    (hp : p.val = 512 * (t.val / 11) + r.val) (hq : q.val = 512 * (t.val % 11) + u.val) :
    (iblk1 V c 0 t : Vec Ideal S512x512 .bf16) (ix2 r u) = (V c main_v37 : S4096x5632.Idx → EReal) (ix2 p q) := by
  obtain ⟨e0, e1, -, -, -, -⟩ := index_facts t
  unfold iblk1
  rw [View.read_apply]
  show V c main_v37 _ = V c main_v37 _
  congr 1
  funext a
  apply Fin.ext
  match a with
  | ⟨0, _⟩ => show win1_0.index t (0 : Fin 2) * 512 + 1 * r.val = p.val; rw [e0, hp]; omega
  | ⟨1, _⟩ => show win1_0.index t (1 : Fin 2) * 512 + 1 * u.val = q.val; rw [e1, hq]; omega

/-- The weight block at point t, at (n, u): the down weights at output n, unit 512 (t % 11) + u. -/
theorem weightBlock_apply (c : Dev nD) (t : Fin cfg1.N) (n : Fin 2048) (u : Fin 512) (q : Fin 5632)
    (hq : q.val = 512 * (t.val % 11) + u.val) :
    (iblk1 V c 1 t : Vec Ideal S2048x512 .bf16) (ix2 n u) = (V c main_v36 : S2048x5632.Idx → EReal) (ix2 n q) := by
  obtain ⟨-, -, e2, e3, -, -⟩ := index_facts t
  unfold iblk1
  rw [View.read_apply]
  show V c main_v36 _ = V c main_v36 _
  congr 1
  funext a
  apply Fin.ext
  match a with
  | ⟨0, _⟩ => show win1_1.index t (0 : Fin 2) * 2048 + 1 * n.val = n.val; rw [e2]; omega
  | ⟨1, _⟩ => show win1_1.index t (1 : Fin 2) * 512 + 1 * u.val = q.val; rw [e3, hq]; omega

/-! ## The accumulator after each point -/

/-- The products the contraction at (token p, output n) sums, by hidden unit. -/
abbrev prods (h : S4096x5632.Idx → EReal) (wd : S2048x5632.Idx → EReal) (p : Fin 4096) (n : Fin 2048) : Fin 5632 → EReal :=
  fun k => h (ix2 p k) * wd (ix2 n k)

/-- One step at (r, n), when the two blocks are block b of token p's hidden row and of output n's weights: the
    accumulator there plus block b's products. -/
theorem step_at (x0 : Vec Ideal S512x512 .bf16) (x1 : Vec Ideal S2048x512 .bf16) (a : Vec Ideal S512x2048 .f32)
    (h : S4096x5632.Idx → EReal) (wd : S2048x5632.Idx → EReal) (b : ℕ) (r : Fin 512) (n : Fin 2048) (p : Fin 4096)
    (h0 : ∀ u : Fin 512, x0 (ix2 r u) = h (ix2 p (Cert.Spec.unit b u)))
    (h1 : ∀ u : Fin 512, x1 (ix2 n u) = wd (ix2 n (Cert.Spec.unit b u))) :
    k1_pay2 x0 x1 a (ix2 r n) = a (ix2 r n) + ∑ u : Fin 512, prods h wd p n (Cert.Spec.unit b u) :=
  (step_apply x0 x1 a r n).trans
    (congrArg (a (ix2 r n) + ·) (Finset.sum_congr rfl fun u _ => congrArg₂ (· * ·) (h0 u) (h1 u)))

/-- At a reduction's first block the accumulator is zero plus the block's products. -/
theorem acc_first (c : Dev nD) (t : Fin cfg1.N) (h0 : t.val % 11 = 0) (r : Fin 512) (n : Fin 2048) (p : Fin 4096)
    (hp : p.val = 512 * (t.val / 11) + r.val) :
    accAt1 V c t.val t.isLt (ix2 r n)
      = 0 + ∑ u : Fin 512, prods (V c main_v37) (V c main_v36) p n (Cert.Spec.unit (t.val % 11) u) := by
  rw [accAt1_first V c t h0]
  refine (step_at (iblk1 V c 0 t) (iblk1 V c 1 t) (k1_pay1 (F := Ideal)) (V c main_v37) (V c main_v36) (t.val % 11) r n p
    (fun u => hiddenBlock_apply V c t r u p (Cert.Spec.unit (t.val % 11) u) hp
      (by show 512 * (t.val % 11 % 11) + u.val = 512 * (t.val % 11) + u.val; omega))
    (fun u => weightBlock_apply V c t n u (Cert.Spec.unit (t.val % 11) u)
      (by show 512 * (t.val % 11 % 11) + u.val = 512 * (t.val % 11) + u.val; omega))).trans ?_
  rw [reset_apply]

/-- At a later block it is what the point before left plus the block's products. -/
theorem acc_next (c : Dev nD) (t : Fin cfg1.N) (h0 : ¬t.val % 11 = 0) (r : Fin 512) (n : Fin 2048) (p : Fin 4096)
    (hp : p.val = 512 * (t.val / 11) + r.val) :
    accAt1 V c t.val t.isLt (ix2 r n)
      = accAt1 V c (t.val - 1) (Nat.lt_of_le_of_lt (Nat.sub_le _ _) t.isLt) (ix2 r n)
        + ∑ u : Fin 512, prods (V c main_v37) (V c main_v36) p n (Cert.Spec.unit (t.val % 11) u) := by
  rw [accAt1_next V c t h0]
  exact step_at (iblk1 V c 0 t) (iblk1 V c 1 t) _ (V c main_v37) (V c main_v36) (t.val % 11) r n p
    (fun u => hiddenBlock_apply V c t r u p (Cert.Spec.unit (t.val % 11) u) hp
      (by show 512 * (t.val % 11 % 11) + u.val = 512 * (t.val % 11) + u.val; omega))
    (fun u => weightBlock_apply V c t n u (Cert.Spec.unit (t.val % 11) u)
      (by show 512 * (t.val % 11 % 11) + u.val = 512 * (t.val % 11) + u.val; omega))

/-- After point m the accumulator holds, at (r, n), the partial contraction over the blocks 0 … m % 11 of token
    512 (m / 11) + r: by induction on the point. -/
theorem acc_apply (c : Dev nD) : ∀ (m : ℕ) (hm : m < cfg1.N) (r : Fin 512) (n : Fin 2048) (p : Fin 4096),
    p.val = 512 * (m / 11) + r.val →
    accAt1 V c m hm (ix2 r n) = Cert.Spec.partialDown (prods (V c main_v37) (V c main_v36) p n) (m % 11) := by
  intro m
  induction m with
  | zero =>
    intro hm r n p hp
    refine (acc_first V c ⟨0, hm⟩ rfl r n p hp).trans ?_
    exact (Cert.Spec.partialDown_zero _).symm
  | succ m ih =>
    intro hm r n p hp
    by_cases h0 : (m + 1) % 11 = 0
    · refine (acc_first V c ⟨m + 1, hm⟩ h0 r n p hp).trans ?_
      show 0 + ∑ u : Fin 512, prods (V c main_v37) (V c main_v36) p n (Cert.Spec.unit ((m + 1) % 11) u) = _
      rw [h0]
      exact (Cert.Spec.partialDown_zero _).symm
    · refine (acc_next V c ⟨m + 1, hm⟩ h0 r n p hp).trans ?_
      show accAt1 V c m _ (ix2 r n) + ∑ u : Fin 512, prods (V c main_v37) (V c main_v36) p n (Cert.Spec.unit ((m + 1) % 11) u) = _
      rw [ih (Nat.lt_of_succ_lt hm) r n p (by rw [hp]; omega)]
      have e : (m + 1) % 11 = m % 11 + 1 := by omega
      rw [e]
      exact (Cert.Spec.partialDown_succ _ _).symm

/-! ## From the written-back blocks to the array -/

/-- What a written-back point writes is its block of the down projection of the region's input arrays. -/
theorem flushed_eq (c : Dev nD) (t : Fin cfg1.N) (hf : (cfg1.win 2).flush t = true) :
    (dat1 (F := Ideal) V c).flushed 2 t
      = ((cfg1.win 2).blk t).view.read (Elt Ideal) (Cert.Spec.down (V c main_v37) (V c main_v36)) := by
  have h10 : t.val % 11 = 10 := (flush1_2 t).mp hf
  have hN : t.val < 88 := lt_of_lt_of_eq t.isLt (show cfg1.N = 88 from N_1)
  obtain ⟨-, -, -, -, e4, e5⟩ := index_facts t
  show (cfg1.win 2).cut (grid1.coords t) ((dat1 (F := Ideal) V c).after 2 t) = _
  rw [after1_2]
  funext j
  have hr : (j 0).val < 512 := (j 0).isLt
  have hn : (j 1).val < 2048 := (j 1).isLt
  have ej : (cfg1.win 2).xinj (grid1.coords t) j = ix2 (⟨(j 0).val, hr⟩ : Fin 512) (⟨(j 1).val, hn⟩ : Fin 2048) := by
    funext a
    match a with
    | ⟨0, _⟩ => rfl
    | ⟨1, _⟩ => rfl
  refine (congrArg (accAt1 V c t.val t.isLt) ej).trans ?_
  rw [acc_apply V c t.val t.isLt ⟨(j 0).val, hr⟩ ⟨(j 1).val, hn⟩ ⟨512 * (t.val / 11) + (j 0).val, by omega⟩ rfl, h10,
    Cert.Spec.partialDown_last, View.read_apply]
  show Cert.Spec.downAt (V c main_v37) (V c main_v36) _ _ = Cert.Spec.downAt (V c main_v37) (V c main_v36) _ _
  congr 1 <;> apply Fin.ext
  · show 512 * (t.val / 11) + (j 0).val = win1_2.index t (0 : Fin 2) * 512 + 1 * (j 0).val
    rw [e4]; omega
  · show (j 1).val = win1_2.index t (1 : Fin 2) * 2048 + 1 * (j 1).val
    rw [e5]; omega

/-- An index of the result array is in point t's block iff each coordinate is in the block's range on its axis. -/
theorem mem_resultBlock (t : Fin cfg1.N) (i : S4096x2048.Idx) :
    i ∈ ((cfg1.win 2).blk t).view.set
      ↔ ∀ a : Fin 2, win1_2.index t a * S512x2048.size a ≤ (i a).val
          ∧ (i a).val < win1_2.index t a * S512x2048.size a + S512x2048.size a := by
  show i ∈ ((View.whole main_v38).slice (win1_2.rect t)).set ↔ _
  rw [View.set_slice_whole, Rect.mem_set_unit]
  exact Iff.rfl

/-- The eight row blocks tile the array: row p is in the block written back at point 11 (p / 512) + 10. -/
theorem rows_covered (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 88 := N_1
  have ht : 11 * ((i 0).val / 512) + 10 < cfg1.N := by rw [hN]; omega
  obtain ⟨-, -, -, -, e4, e5⟩ := index_facts ⟨11 * ((i 0).val / 512) + 10, ht⟩
  refine ⟨⟨11 * ((i 0).val / 512) + 10, ht⟩, (flush1_2 _).mpr (by show (11 * ((i 0).val / 512) + 10) % 11 = 10; omega), ?_⟩
  rw [mem_resultBlock]
  intro a
  match a with
  | ⟨0, _⟩ =>
    show win1_2.index ⟨11 * ((i 0).val / 512) + 10, ht⟩ (0 : Fin 2) * 512 ≤ (i 0).val
      ∧ (i 0).val < win1_2.index ⟨11 * ((i 0).val / 512) + 10, ht⟩ (0 : Fin 2) * 512 + 512
    rw [e4]
    show (11 * ((i 0).val / 512) + 10) / 11 * 512 ≤ (i 0).val ∧ (i 0).val < (11 * ((i 0).val / 512) + 10) / 11 * 512 + 512
    omega
  | ⟨1, _⟩ =>
    show win1_2.index ⟨11 * ((i 0).val / 512) + 10, ht⟩ (1 : Fin 2) * 2048 ≤ (i 1).val
      ∧ (i 1).val < win1_2.index ⟨11 * ((i 0).val / 512) + 10, ht⟩ (1 : Fin 2) * 2048 + 2048
    rw [e5]
    omega

/-- The result array after the down region is the down projection of the region's input arrays. -/
theorem down_final (c : Dev nD) :
    (dat1 (F := Ideal) V c).arrAt 2 cfg1.N = Cert.Spec.down (V c main_v37) (V c main_v36) :=
  (dat1 (F := Ideal) V c).arrAt_eq_of_cover 2 (Cert.Spec.down (V c main_v37) (V c main_v36)) (flushed_eq V c) rows_covered

end Cert.KernelIdeal.Val

end
-- ==== Proof.Dequant.lean ====
/-
  The weight matrices as both programs rebuild them on the host from a codebook of 4096 rows of 8 numbers, an array of
  row numbers and one scale per output row: a negative row number is taken from the end (4096 is added), the codebook rows
  are gathered and laid side by side, eight entries per row number, and every output row is multiplied by its scale.
  Both programs apply these same operations, so the two are carried as opaque functions and never opened.
-/
import proofs.«103767_j678604833231_1_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- A 5632 × 2048 weight matrix (gate, up) from its codebook, row numbers and scales. -/
def rebuildWide (cb : FVec Ideal S4096x8 .f32) (idx : (⟨S5632x256, .i32⟩ : BufTy).Contents (Elt Ideal))
    (sc : FVec Ideal S5632 .f32) : FVec Ideal S5632x2048 .f32 :=
  mulf (F := Ideal) (shapeCast _ (Host.gather gather_S4096x8_S5632x256x1_S5632x256x8_2_0_n_n_0_2_18 cb (broadcastInDim S5632x256x1 ![0, 1] bcast_S5632x256_S5632x256x1_0_1 (select (cmpi .slt idx (broadcastInDim S5632x256 ![] bcast_S_S5632x256 (constantI S_ 32 0#32))) (addi idx (broadcastInDim S5632x256 ![] bcast_S_S5632x256 (constantI S_ 32 4096#32))) idx))) shapeCasts_S5632x256x8_S5632x2048) (broadcastInDim S5632x2048 ![0, 1] bcast_S5632x1_S5632x2048_0_1 (broadcastInDim S5632x1 ![0] bcast_S5632_S5632x1_0 sc))

/-- The 2048 × 5632 down weight matrix from its codebook, row numbers and scales. -/
def rebuildTall (cb : FVec Ideal S4096x8 .f32) (idx : (⟨S2048x704, .i32⟩ : BufTy).Contents (Elt Ideal))
    (sc : FVec Ideal S2048 .f32) : FVec Ideal S2048x5632 .f32 :=
  mulf (F := Ideal) (shapeCast _ (Host.gather gather_S4096x8_S2048x704x1_S2048x704x8_2_0_n_n_0_2_18 cb (broadcastInDim S2048x704x1 ![0, 1] bcast_S2048x704_S2048x704x1_0_1 (select (cmpi .slt idx (broadcastInDim S2048x704 ![] bcast_S_S2048x704 (constantI S_ 32 0#32))) (addi idx (broadcastInDim S2048x704 ![] bcast_S_S2048x704 (constantI S_ 32 4096#32))) idx))) shapeCasts_S2048x704x8_S2048x5632) (broadcastInDim S2048x5632 ![0, 1] bcast_S2048x1_S2048x5632_0_1 (broadcastInDim S2048x1 ![0] bcast_S2048_S2048x1_0 sc))

end Cert.ReferenceIdeal.RefValue

end
-- ==== Proof.HostValue.lean ====
/-
  What the host operations before the two regions leave in the regions' four input arrays, over the extended reals: the
  activations unchanged (the format change is the identity), and the three weight matrices rebuilt from their codebooks by
  the very operations the reference applies — the same functions `rebuildWide` / `rebuildTall`, never opened.
-/
import proofs.«103767_j678604833231_1_alg».proof.Proof.Gen.KernelIdeal.Regions
import proofs.«103767_j678604833231_1_alg».proof.Proof.Dequant
import Idealize.ShloMosaic.Lib.StableHlo.Run

set_option maxRecDepth 16384
set_option maxHeartbeats 2000000

noncomputable section

namespace Cert.KernelIdeal.Val

open Idealize.ShloMosaic Idealize.ShloMosaic.TcCoe Idealize.SL.Sem
open Cert.KernelIdeal Cert.KernelIdeal.Gen
open Cert.ReferenceIdeal.RefValue (rebuildWide rebuildTall)

variable (m : (ℓ : Loc nD τ sig) → Buf (Elt Ideal) ℓ)

/-- The activations reach the gate/up region unchanged. -/
theorem host_x (c : Dev nD) : Gen.V1 m c (Proc.devRef .tc main_v33) = m ((c.tc : Thread nD τ).loc main_arg0) := by
  show StableHlo.after hostOps0 (fun b => m (c, b)) (Proc.devRef .tc main_v33) = _
  after_results_simp <;> rfl
/-- The gate weights reach it rebuilt from their codebook. -/
theorem host_wg (c : Dev nD) : Gen.V1 m c (Proc.devRef .tc main_v34)
    = rebuildWide (m ((c.tc : Thread nD τ).loc main_arg1)) (m ((c.tc : Thread nD τ).loc main_arg2)) (m ((c.tc : Thread nD τ).loc main_arg3)) := by
  show StableHlo.after hostOps0 (fun b => m (c, b)) (Proc.devRef .tc main_v34) = _
  after_results_simp <;> rfl
/-- The up weights likewise. -/
theorem host_wu (c : Dev nD) : Gen.V1 m c (Proc.devRef .tc main_v35)
    = rebuildWide (m ((c.tc : Thread nD τ).loc main_arg4)) (m ((c.tc : Thread nD τ).loc main_arg5)) (m ((c.tc : Thread nD τ).loc main_arg6)) := by
  show StableHlo.after hostOps0 (fun b => m (c, b)) (Proc.devRef .tc main_v35) = _
  after_results_simp <;> rfl
/-- The down weights reach the down region rebuilt from their codebook. -/
theorem host_wd (c : Dev nD) : Gen.V1 m c (Proc.devRef .tc main_v36)
    = rebuildTall (m ((c.tc : Thread nD τ).loc main_arg7)) (m ((c.tc : Thread nD τ).loc main_arg8)) (m ((c.tc : Thread nD τ).loc main_arg9)) := by
  show StableHlo.after hostOps0 (fun b => m (c, b)) (Proc.devRef .tc main_v36) = _
  after_results_simp <;> rfl

end Cert.KernelIdeal.Val

end
-- ==== Proof.Algebraic.lean ====
/-
  The idealized kernel's result, over the extended reals, as a function of the arguments: the down region's final array
  is the down projection of the hidden layer's array and the rebuilt down weights; the hidden layer's array is the gated
  hidden layer of the activations and the rebuilt gate and up weights; so the result is `Spec.out` of the activations
  and the three rebuilt weight matrices — the function the reference computes.
-/
import proofs.«103767_j678604833231_1_alg».proof.Proof.Run
import proofs.«103767_j678604833231_1_alg».proof.Proof.GateupValue
import proofs.«103767_j678604833231_1_alg».proof.Proof.DownValue
import proofs.«103767_j678604833231_1_alg».proof.Proof.HostValue

set_option maxRecDepth 16384

noncomputable section

namespace Cert.KernelIdeal.Val

open Idealize.ShloMosaic Idealize.ShloMosaic.TcCoe Idealize.SL.Sem
open Cert.KernelIdeal Cert.KernelIdeal.Gen Cert.KernelIdeal.Frame
open Cert.ReferenceIdeal.RefValue (rebuildWide rebuildTall)

variable (m : (ℓ : Loc nD τ sig) → Buf (Elt Ideal) ℓ)

/-- The result array after the whole program, as a function of the arguments. -/
theorem kernel_result (c : Dev nD) :
    (dat1 (F := Ideal) (E2 m) c).arrAt 2 cfg1.N
      = Cert.Spec.out (m ((c.tc : Thread nD τ).loc main_arg0))
          (rebuildWide (m ((c.tc : Thread nD τ).loc main_arg1)) (m ((c.tc : Thread nD τ).loc main_arg2)) (m ((c.tc : Thread nD τ).loc main_arg3)))
          (rebuildWide (m ((c.tc : Thread nD τ).loc main_arg4)) (m ((c.tc : Thread nD τ).loc main_arg5)) (m ((c.tc : Thread nD τ).loc main_arg6)))
          (rebuildTall (m ((c.tc : Thread nD τ).loc main_arg7)) (m ((c.tc : Thread nD τ).loc main_arg8)) (m ((c.tc : Thread nD τ).loc main_arg9))) := by
  -- the hidden layer's array as the down region finds it is what the gate/up region left
  have h37 : E2 m c main_v37 = Cert.Spec.hidden (E1 m c main_v33) (E1 m c main_v34) (E1 m c main_v35) :=
    (W2_arr m c 3).trans (gateup_final (E1 m) c)
  -- the down weights pass the gate/up region untouched
  have h36 : E2 m c main_v36 = E1 m c main_v36 := W2_of_ne m c main_v36 (by decide)
  have hx : E1 m c main_v33 = m ((c.tc : Thread nD τ).loc main_arg0) := host_x m c
  have hg : E1 m c main_v34 = rebuildWide (m ((c.tc : Thread nD τ).loc main_arg1)) (m ((c.tc : Thread nD τ).loc main_arg2)) (m ((c.tc : Thread nD τ).loc main_arg3)) := host_wg m c
  have hu : E1 m c main_v35 = rebuildWide (m ((c.tc : Thread nD τ).loc main_arg4)) (m ((c.tc : Thread nD τ).loc main_arg5)) (m ((c.tc : Thread nD τ).loc main_arg6)) := host_wu m c
  have hd : E1 m c main_v36 = rebuildTall (m ((c.tc : Thread nD τ).loc main_arg7)) (m ((c.tc : Thread nD τ).loc main_arg8)) (m ((c.tc : Thread nD τ).loc main_arg9)) := host_wd m c
  rw [down_final (E2 m) c, h37, h36, hx, hg, hu, hd]
  rfl

end Cert.KernelIdeal.Val

end
-- ==== Proof.Reference.lean ====
/-
  The reference over the extended reals: its result is `Spec.out` of the activations and of the three weight matrices
  its host operations rebuild from their codebooks — the two projections are host contractions over the hidden axis
  (against the transposed weights: row q of the weights is column q of the transpose), the activation is spelt out as
  g · (1 / (1 + e⁻ᵍ)), which is g · logistic g, and the down projection is one host contraction over all 5632 units.
-/
import proofs.«103767_j678604833231_1_alg».proof.Proof.Gen.ReferenceIdeal
import proofs.«103767_j678604833231_1_alg».proof.Proof.Gen.ReferenceIdeal.Run
import proofs.«103767_j678604833231_1_alg».proof.Proof.Gen.ReferenceIdeal.Read
import proofs.«103767_j678604833231_1_alg».proof.Proof.Spec
import proofs.«103767_j678604833231_1_alg».proof.Proof.Dequant
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal

open Cert.ReferenceIdeal.Read

/-- The word 0x3F800000 is the number one. -/
theorem one_f32 : Ideal.ofBits .f32 0x3F800000#32 = 1 := by
  simp [Ideal.ofBits, Ideal.ieee, -EReal.coe_mul]; norm_num

/-- 1 / (1 + e⁻ᵍ) is the logistic function of g. -/
theorem logistic_spelt (g : EReal) :
    Ideal.div (Ideal.ofBits .f32 0x3F800000#32) (Ideal.ofBits .f32 0x3F800000#32 + Ideal.exp (-g)) = Ideal.logistic g := by
  rw [one_f32]; rfl

/-- The gate weights as the reference rebuilds them are the wide matrix of their codebook, row numbers and scales. -/
theorem fold_gate (cb : FVec Ideal S4096x8 .f32) (idx : (⟨S5632x256, .i32⟩ : BufTy).Contents (Elt Ideal)) (sc : FVec Ideal S5632 .f32) :
    rebuildWide cb idx sc = val_main_v10 (F := Ideal) cb idx sc := rfl

/-- The up weights as the reference rebuilds them are the wide matrix of their codebook, row numbers and scales. -/
theorem fold_up (cb : FVec Ideal S4096x8 .f32) (idx : (⟨S5632x256, .i32⟩ : BufTy).Contents (Elt Ideal)) (sc : FVec Ideal S5632 .f32) :
    rebuildWide cb idx sc = val_main_v21 (F := Ideal) cb idx sc := rfl

/-- The down weights as the reference rebuilds them are the tall matrix of their codebook, row numbers and scales. -/
theorem fold_down (cb : FVec Ideal S4096x8 .f32) (idx : (⟨S2048x704, .i32⟩ : BufTy).Contents (Elt Ideal)) (sc : FVec Ideal S2048 .f32) :
    rebuildTall cb idx sc = val_main_v32 (F := Ideal) cb idx sc := rfl

/-- The specification at (token p, output coordinate n): the sum over the 5632 hidden units. -/
theorem out_at (x : Cert.Spec.SX.Idx → EReal) (wg wu : Cert.Spec.SW.Idx → EReal) (wd : Cert.Spec.SD.Idx → EReal)
    (p : Fin 4096) (n : Fin 2048) :
    Cert.Spec.out x wg wu wd (ix2 p n) = ∑ k : Fin 5632, Cert.Spec.hiddenAt x wg wu p k * wd (ix2 n k) := rfl

/-- The gate contraction for (token p, unit k) reads the activations at (p, j). -/
theorem lidx_gate (p : Fin 4096) (n : Fin 2048) (k : Fin 5632) (j : Fin 2048) :
    lidx_main_v34 (lidx_main_v40 (ix2 p n) k) j = ix2 p j :=
  funext fun a => Fin.ext (by match a with | ⟨0, _⟩ => rfl | ⟨1, _⟩ => rfl)

/-- Entry (j, k) of the transposed gate weights is entry (k, j) of the weights. -/
theorem ridx_gate (p : Fin 4096) (n : Fin 2048) (k : Fin 5632) (j : Fin 2048) :
    idx_main_v33 (ridx_main_v34 (lidx_main_v40 (ix2 p n) k) j) = ix2 k j :=
  funext fun a => Fin.ext (by match a with | ⟨0, _⟩ => rfl | ⟨1, _⟩ => rfl)

/-- The up contraction for (token p, unit k) reads the activations at (p, j). -/
theorem lidx_up (p : Fin 4096) (n : Fin 2048) (k : Fin 5632) (j : Fin 2048) :
    lidx_main_v37 (lidx_main_v40 (ix2 p n) k) j = ix2 p j :=
  funext fun a => Fin.ext (by match a with | ⟨0, _⟩ => rfl | ⟨1, _⟩ => rfl)

/-- Entry (j, k) of the transposed up weights is entry (k, j) of the weights. -/
theorem ridx_up (p : Fin 4096) (n : Fin 2048) (k : Fin 5632) (j : Fin 2048) :
    idx_main_v36 (ridx_main_v37 (lidx_main_v40 (ix2 p n) k) j) = ix2 k j :=
  funext fun a => Fin.ext (by match a with | ⟨0, _⟩ => rfl | ⟨1, _⟩ => rfl)

/-- Entry (k, n) of the transposed down weights is entry (n, k) of the weights. -/
theorem ridx_down (p : Fin 4096) (n : Fin 2048) (k : Fin 5632) :
    idx_main_v39 (ridx_main_v40 (ix2 p n) k) = ix2 n k :=
  funext fun a => Fin.ext (by match a with | ⟨0, _⟩ => rfl | ⟨1, _⟩ => rfl)

/-- The reference's last stage is the specification of the activations and the three rebuilt weight matrices: at
    (p, n) it is the sum over the units k of  (g · logistic g · u) · wd(n, k)  with g, u the gate and up projections
    of token p on unit k, each a sum over the 2048 hidden coordinates against row k of the weights. -/
theorem ref_value (x0 : FVec Ideal S4096x2048 .f32)
    (x1 : FVec Ideal S4096x8 .f32) (x2 : (⟨S5632x256, .i32⟩ : BufTy).Contents (Elt Ideal)) (x3 : FVec Ideal S5632 .f32)
    (x4 : FVec Ideal S4096x8 .f32) (x5 : (⟨S5632x256, .i32⟩ : BufTy).Contents (Elt Ideal)) (x6 : FVec Ideal S5632 .f32)
    (x7 : FVec Ideal S4096x8 .f32) (x8 : (⟨S2048x704, .i32⟩ : BufTy).Contents (Elt Ideal)) (x9 : FVec Ideal S2048 .f32) :
    val_main_v40 (F := Ideal) x0 x1 x2 x3 x4 x5 x6 x7 x8 x9
      = Cert.Spec.out x0 (rebuildWide x1 x2 x3) (rebuildWide x4 x5 x6) (rebuildTall x7 x8 x9) := by
  rw [fold_gate, fold_up, fold_down]
  funext i
  obtain ⟨p, n, rfl⟩ : ∃ (p : Fin 4096) (n : Fin 2048), i = ix2 p n := ⟨i 0, i 1, eq_ix2 i⟩
  rw [val_main_v40_apply, out_at]
  refine Finset.sum_congr rfl fun k _ => ?_
  simp only [val_main_v38_apply, val_main_v35_apply, val_main_call0_v5_apply, val_main_call0_v4_apply, val_main_call0_cst_0_apply,
    val_main_call0_v3_apply, val_main_call0_v2_apply, val_main_call0_cst_apply, val_main_call0_v1_apply, val_main_call0_v0_apply,
    val_main_v34_apply, val_main_v33_apply, val_main_v37_apply, val_main_v36_apply, val_main_v39_apply,
    lidx_gate, ridx_gate, lidx_up, ridx_up, ridx_down]
  simp only [Ideal.mulf_def, Ideal.hostDivf_def, Ideal.addf_def, Ideal.hostUnary_exp_def, Ideal.hostNegf_def, Ideal.negf_def,
    Ideal.ofBits_def, logistic_spelt]
  simp only [Cert.Spec.hiddenAt, Cert.Spec.silu, Cert.Spec.proj]

/-- The reference's run: every weakly fair execution terminates with the result at `Spec.out` of the activations and the
    rebuilt weights, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
        = Cert.Spec.out (m ((c.tc : Thread nD τ).loc main_arg0))
            (rebuildWide (m ((c.tc : Thread nD τ).loc main_arg1)) (m ((c.tc : Thread nD τ).loc main_arg2)) (m ((c.tc : Thread nD τ).loc main_arg3)))
            (rebuildWide (m ((c.tc : Thread nD τ).loc main_arg4)) (m ((c.tc : Thread nD τ).loc main_arg5)) (m ((c.tc : Thread nD τ).loc main_arg6)))
            (rebuildTall (m ((c.tc : Thread nD τ).loc main_arg7)) (m ((c.tc : Thread nD τ).loc main_arg8)) (m ((c.tc : Thread nD τ).loc main_arg9)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) := by
  refine (θ_run defs _ _).mono (fun _ h c => ⟨(h c).1.trans ?_, (h c).2⟩) (Cert.ReferenceIdeal.Value.run (F := Ideal) m ρ)
  exact (val_main_v40_eq _ _ _ _ _ _ _ _ _ _).trans (ref_value _ _ _ _ _ _ _ _ _ _)

end Cert.ReferenceIdeal.RefValue

end
-- ==== Proof.lean ====
/-
  The certificate of a gated two-layer expert whose three weight matrices are stored as codebook rows: the kernel rebuilds
  the matrices on the host, computes  silu(x · Wgᵀ) ∗ (x · Wuᵀ)  block by block in one pipelined region and contracts it
  with  Wdᵀ  in a second, eleven blocks of 512 hidden units accumulated in scratch per row block; the reference computes the
  same with three whole contractions. Over the extended reals both results are `Spec.out` of the activations and the
  rebuilt matrices: the matrix unit's products into a zero accumulator are plain sums, changes of float format are the
  identity, the logistic is  1 / (1 + e⁻ᵍ)  on both sides, and regrouping a sum needs only that addition is commutative
  and associative. The three frames: the two kernel programs by one run over their three segments (the same text at the
  word level and at the ideal instance), the reference by its run with the result dropped.
-/
import proofs.«103767_j678604833231_1_alg».proof.Defs
import proofs.«103767_j678604833231_1_alg».proof.Proof.Gen.Kernel
import proofs.«103767_j678604833231_1_alg».proof.Proof.Gen.KernelIdeal
import proofs.«103767_j678604833231_1_alg».proof.Proof.Gen.ReferenceIdeal
import proofs.«103767_j678604833231_1_alg».proof.Proof.Gen.Pre_finite_inputs
import proofs.«103767_j678604833231_1_alg».proof.Proof.KernelRun
import proofs.«103767_j678604833231_1_alg».proof.Proof.Run
import proofs.«103767_j678604833231_1_alg».proof.Proof.Algebraic
import proofs.«103767_j678604833231_1_alg».proof.Proof.Reference
import Idealize.ShloMosaic.Adequacy
import Idealize.ShloMosaic.Init

noncomputable section

namespace Cert.Proof

open Idealize.ShloMosaic Idealize.SL.Sem
open Cert.ReferenceIdeal.RefValue (rebuildWide rebuildTall)

/-- The word-level program runs and leaves its arguments unchanged. -/
theorem frame_k : Cert.frame_Kernel := fun m ρ _ => Cert.Kernel.Frame.frame (F := Bits) m ρ

/-- So does the idealized program. -/
theorem frame_ki : Cert.frame_KernelIdeal := fun m ρ _ => Cert.KernelIdeal.Frame.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at `Spec.out` of the activations and the rebuilt weight matrices. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (rebuildWide (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (rebuildWide (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (rebuildTall (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Val.kernel_result m c), (h c).2⟩)
      (Cert.KernelIdeal.Frame.run_result (F := Ideal) m ρ)
  · refine (θ_run Cert.ReferenceIdeal.defs _ _).mono (fun r h c => ⟨(h c).1.trans ?_, (h c).2⟩)
      (Cert.ReferenceIdeal.RefValue.ref_run m' ρ')
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
